-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x512 : Shape := ⟨2, ![2000, 512]⟩
abbrev S2000x128 : Shape := ⟨2, ![2000, 128]⟩
abbrev S1700000x128 : Shape := ⟨2, ![1700000, 128]⟩
abbrev S1x128 : Shape := ⟨2, ![1, 128]⟩
abbrev S100000x40 : Shape := ⟨2, ![100000, 40]⟩
abbrev S2000x40 : Shape := ⟨2, ![2000, 40]⟩
abbrev S1700000x40 : Shape := ⟨2, ![1700000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x40, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x40, .f32⟩
  | .hbm, ⟨74, _⟩ => ⟨S1700000x1, .f32⟩
  | .hbm, ⟨75, _⟩ => ⟨S1700000x40, .f32⟩
  | .hbm, ⟨76, _⟩ => ⟨S1700000x40, .f32⟩
  | .hbm, ⟨77, _⟩ => ⟨S_, .f32⟩
  | .hbm, ⟨78, _⟩ => ⟨S100000x40, .f32⟩
  | .hbm, ⟨79, _⟩ => ⟨S1700000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x40, .f32⟩
  | .local _ .vmem, ⟨9, _⟩ => ⟨S2000x40, .f32⟩
  | .local _ .vmem, ⟨10, _⟩ => ⟨S2000x40, .f32⟩
  | .local _ .vmem, ⟨11, _⟩ => ⟨S2000x40, .f32⟩
  | .local _ .vmem, ⟨12, _⟩ => ⟨S2000x40, .f32⟩
  | .local _ .vmem, ⟨13, _⟩ => ⟨S1x40, .f32⟩
  | .local _ .vmem, ⟨14, _⟩ => ⟨S2000x40, .f32⟩
  | .local _ .vmem, ⟨15, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x128_S2000x128_1_0_0_1_n_n_wf : DotDims.WF S2000x512 S512x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x40_S2000x40_1_0_0_1_n_n_wf : DotDims.WF S2000x128 S128x40 S2000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S100000x40.size a
  hwx1_3 : ∀ i : grid1.Coords, EltTy.bits .f32 = 32 ∨ (Rect.block (s := S100000x40) S2000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x40, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x40, .f32⟩
  | 115 => ⟨S1700000x1, .f32⟩
  | 116 => ⟨S1700000x40, .f32⟩
  | 117 => ⟨S1700000x40, .f32⟩
  | 118 => ⟨S_, .f32⟩
  | 119 => ⟨S100000x40, .f32⟩
  | 120 => ⟨S1700000x1, .i32⟩
  | 121 => ⟨S100000x40, .f32⟩
  | 122 => ⟨S1x40, .f32⟩
  | 123 => ⟨S100000x40, .f32⟩
  | 124 => ⟨S100000x40, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x40, .f32⟩
  | 4 => ⟨S100000x40, .f32⟩
  | 5 => ⟨S100000x40, .f32⟩
  | 6 => ⟨S_, .f32⟩
  | 7 => ⟨S100000, .f32⟩
  | 8 => ⟨S100000x1, .f32⟩
  | 9 => ⟨S100000x1, .f32⟩
  | 10 => ⟨S100000x40, .f32⟩
  | 11 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  A two-layer graph convolution with symmetric normalisation, stated once as pure functions of the six argument
  arrays: the node features x, the edge list e (a row of sources over a row of targets), and the weights and biases of
  the two layers.

  With self loops appended, an edge list gives index vectors s and d of length E + N.  deg counts, per node, the edges
  that end there; dinv is deg^(-1/2) where deg > 0 and 0 elsewhere; the weight of edge k is dinv[s k] * dinv[d k].
  One propagation step sends a node table h to the table whose row n is the sum, over the edges k with d k = n, of
  h[s k] scaled by the weight of k.  The network is
      log_softmax (propagate (relu (propagate (x W1) + b1) W2) + b2)
  with the log-softmax taken along each row, shifted by the row's maximum.

  Every function below is spelt with the host operations of the printed reference program, so that the reference's
  term is these functions composed, by unfolding; the three dense stages (lin1, lin2, lsm) are what the three kernel
  regions are shown to compute block by block.
-/
import proofs.«147324_j32229434589358_1_alg».proof.ReferenceIdeal

noncomputable section

namespace Cert.Gcn

open Idealize.ShloMosaic Idealize.SL.Sem Cert.ReferenceIdeal

variable {F : FTy → Type} [FloatOps F] [Cert.ReferenceIdeal.Facts]

open Cert.ReferenceIdeal.Facts₀ Cert.ReferenceIdeal.Facts

/-- The sources: the first row of the edge list followed by 0, 1, …, N-1 (one self loop per node). -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets: the second row of the edge list followed by 0, 1, …, N-1. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An index vector as a gather takes it: a negative entry counts from the end (N is added to it), and the vector
    becomes a column. -/
def wrap (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- An index vector as a scatter takes it: a column, unwrapped. -/
def col (d : (⟨S1700000, .i32⟩ : BufTy).Contents (Elt F)) : (⟨S1700000x1, .i32⟩ : BufTy).Contents (Elt F) :=
  broadcastInDim S1700000x1 ![0] bcast_S1700000_S1700000x1_0 d

/-- The in-degree of every node: a one scattered to each edge's target and summed. -/
def degOf (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32)) (col d)
    (broadcastInDim S1700000 ![] bcast_S_S1700000 (constant S_ .f32 0x3F800000#32))

/-- deg^(-1/2) where the degree is positive, 0 elsewhere. -/
def dinvOf (d : (⟨S1700000, .i32⟩ : BufTy).Contents (Elt F)) : (⟨S100000, .f32⟩ : BufTy).Contents (Elt F) :=
  select (cmpf .ogt (degOf d) (broadcastInDim S100000 ![] bcast_S_S100000 (constant S_ .f32 0x00000000#32)))
    (Host.rsqrt (degOf d)) (broadcastInDim S100000 ![] bcast_S_S100000 (constant S_ .f32 0x00000000#32))

/-- The weight of every edge: dinv at its source times dinv at its target. -/
def normOf (s d : (⟨S1700000, .i32⟩ : BufTy).Contents (Elt F)) : (⟨S1700000, .f32⟩ : BufTy).Contents (Elt F) :=
  mulf (Host.gather gather_S100000_S1700000x1_S1700000_n_0_n_n_0_1_1 (dinvOf d) (wrap s))
    (Host.gather gather_S100000_S1700000x1_S1700000_n_0_n_n_0_1_1 (dinvOf d) (wrap d))

/-- One propagation step on a table of 128 columns: row n of the result sums, over the edges into n, the source's
    row scaled by the edge's weight. -/
def agg128 (s d : (⟨S1700000, .i32⟩ : BufTy).Contents (Elt F)) (w : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32)) (col d)
    (mulf (Host.gather gather_S100000x128_S1700000x1_S1700000x128_1_0_n_n_0_1_1128 h (wrap s))
      (broadcastInDim S1700000x128 ![0, 1] bcast_S1700000x1_S1700000x128_0_1
        (broadcastInDim S1700000x1 ![0] bcast_S1700000_S1700000x1_0 w)))

/-- The same step on a table of 40 columns. -/
def agg40 (s d : (⟨S1700000, .i32⟩ : BufTy).Contents (Elt F)) (w : (⟨S1700000, .f32⟩ : BufTy).Contents (Elt F))
    (h : (⟨S100000x40, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant S_ .f32 0x00000000#32)) (col d)
    (mulf (Host.gather gather_S100000x40_S1700000x1_S1700000x40_1_0_n_n_0_1_140 h (wrap s))
      (broadcastInDim S1700000x40 ![0, 1] bcast_S1700000x1_S1700000x40_0_1
        (broadcastInDim S1700000x1 ![0] bcast_S1700000_S1700000x1_0 w)))

/-- The first dense layer: x W1. -/
def lin1 (x : (⟨S100000x512, .f32⟩ : BufTy).Contents (Elt F)) (w : (⟨S512x128, .f32⟩ : BufTy).Contents (Elt F)) :
    (⟨S100000x128, .f32⟩ : BufTy).Contents (Elt F) :=
  Host.dotGeneral dot_S100000x512_S512x128_S100000x128_1_0_0_1_n_n none x w

/-- relu (a + b), the bias added to every row. -/
def hidden (a : (⟨S100000x128, .f32⟩ : BufTy).Contents (Elt F)) (b : (⟨S128, .f32⟩ : BufTy).Contents (Elt F)) :
    (⟨S100000x128, .f32⟩ : BufTy).Contents (Elt F) :=
  maximumf (addf a (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The second dense layer on the rectified first: relu (a + b1) W2. -/
def lin2 (a : (⟨S100000x128, .f32⟩ : BufTy).Contents (Elt F)) (b : (⟨S128, .f32⟩ : BufTy).Contents (Elt F))
    (w : (⟨S128x40, .f32⟩ : BufTy).Contents (Elt F)) : (⟨S100000x40, .f32⟩ : BufTy).Contents (Elt F) :=
  Host.dotGeneral dot_S100000x128_S128x40_S100000x40_1_0_0_1_n_n none (hidden a b) w

/-- a + b, the bias added to every row. -/
def logits (a : (⟨S100000x40, .f32⟩ : BufTy).Contents (Elt F)) (b : (⟨S40, .f32⟩ : BufTy).Contents (Elt F)) :
    (⟨S100000x40, .f32⟩ : BufTy).Contents (Elt F) :=
  addf a (broadcastInDim S100000x40 ![0, 1] bcast_S1x40_S100000x40_0_1 (broadcastInDim S1x40 ![1] bcast_S40_S1x40_1 b))

/-- Each row's maximum (taken once more against -∞, as the reference does). -/
def rowMax (y : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf y (constant S_ .f32 0xFF800000#32) reducesTo_S100000x40_S100000_d1 h_S_)

/-- Each entry less its row's maximum. -/
def shifted (y : (⟨S100000x40, .f32⟩ : BufTy).Contents (Elt F)) : (⟨S100000x40, .f32⟩ : BufTy).Contents (Elt F) :=
  subf y (broadcastInDim S100000x40 ![0, 1] bcast_S100000x1_S100000x40_0_1 (broadcastInDim S100000x1 ![0] bcast_S100000_S100000x1_0 (rowMax y)))

/-- The row-wise log-softmax: the shifted entry less the logarithm of the row's sum of exponentials of shifted entries. -/
def logSoftmax (y : (⟨S100000x40, .f32⟩ : BufTy).Contents (Elt F)) : (⟨S100000x40, .f32⟩ : BufTy).Contents (Elt F) :=
  subf (shifted y) (broadcastInDim S100000x40 ![0, 1] bcast_S100000x1_S100000x40_0_1
    (Host.log (broadcastInDim S100000x1 ![0] bcast_S100000_S100000x1_0
      (Host.reduceAdd (Host.exp (shifted y)) (constant S_ .f32 0x00000000#32) reducesTo_S100000x40_S100000_d1 h_S_))))

/-- The last stage: log_softmax (a + b2). -/
def lsm (a : (⟨S100000x40, .f32⟩ : BufTy).Contents (Elt F)) (b : (⟨S40, .f32⟩ : BufTy).Contents (Elt F)) :
    (⟨S100000x40, .f32⟩ : BufTy).Contents (Elt F) :=
  logSoftmax (logits a b)

/-- The whole network. -/
def out (x : (⟨S100000x512, .f32⟩ : BufTy).Contents (Elt F)) (e : (⟨S2x1600000, .i32⟩ : BufTy).Contents (Elt F))
    (w1 : (⟨S512x128, .f32⟩ : BufTy).Contents (Elt F)) (b1 : (⟨S128, .f32⟩ : BufTy).Contents (Elt F))
    (w2 : (⟨S128x40, .f32⟩ : BufTy).Contents (Elt F)) (b2 : (⟨S40, .f32⟩ : BufTy).Contents (Elt F)) :
    (⟨S100000x40, .f32⟩ : BufTy).Contents (Elt F) :=
  lsm (agg40 (srcOf e) (dstOf e) (normOf (srcOf e) (dstOf e))
    (lin2 (agg128 (srcOf e) (dstOf e) (normOf (srcOf e) (dstOf e)) (lin1 x w1)) b1 w2)) b2

end Cert.Gcn

end
-- ==== Proof.Region0.lean ====
/-
  Region 0 (the first dense layer).  The grid has 50 points; point t takes rows 2000 t … 2000 t + 1999 of x and all
  of W1 and writes back the same rows of the product.  Over the exact reals the block's product is, entry by entry, the
  sum over the 512 inner coordinates of x's entry times W1's entry (the change of float format before the product is
  the identity there and the accumulator starts at zero), which is the whole product x W1 read at that row: so the
  array the region leaves is x W1.
-/
import proofs.«147324_j32229434589358_1_alg».proof.Proof.Gen.KernelIdeal.Frame
import proofs.«147324_j32229434589358_1_alg».proof.Proof.Gen.ReferenceIdeal
import proofs.«147324_j32229434589358_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)
open Idealize.ShloMosaic.ValueIdx

-- the buffer contents when the region is entered, at the exact reals: any contents at all
variable (V : (c : Dev nD) → (b : Ref sig .tc) → Buf (Elt Ideal) ((c : Thread nD τ).loc b))

/-! ## The two products read at an index -/

/-- The left operand's row coordinate, in a block's product, is the output's row. -/
theorem blockDot_lhs_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- The left operand's column coordinate is the inner coordinate. -/
theorem blockDot_lhs_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
/-- The right operand's row coordinate is the inner coordinate. -/
theorem blockDot_rhs_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
/-- The right operand's column coordinate is the output's column. -/
theorem blockDot_rhs_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The same four coordinates for the whole arrays' product. -/
theorem wholeDot_lhs_0 (i : Cert.ReferenceIdeal.S100000x128.Idx) (q : Cert.ReferenceIdeal.dot_S100000x512_S512x128_S100000x128_1_0_0_1_n_n.contr.Idx) :
    (Cert.ReferenceIdeal.dot_S100000x512_S512x128_S100000x128_1_0_0_1_n_n.lhsIdx i q 0).val = (i 0).val := by
  unfold DotDims.lhsIdx
  rw [dif_neg (show ¬(0 : Fin Cert.ReferenceIdeal.S100000x512.rank) ∈ Cert.ReferenceIdeal.dot_S100000x512_S512x128_S100000x128_1_0_0_1_n_n.lhsBatch by decide), dif_pos (show (0 : Fin Cert.ReferenceIdeal.S100000x512.rank) ∈ Cert.ReferenceIdeal.dot_S100000x512_S512x128_S100000x128_1_0_0_1_n_n.lhsNonContracting by decide)]
  rfl
theorem wholeDot_lhs_1 (i : Cert.ReferenceIdeal.S100000x128.Idx) (q : Cert.ReferenceIdeal.dot_S100000x512_S512x128_S100000x128_1_0_0_1_n_n.contr.Idx) :
    (Cert.ReferenceIdeal.dot_S100000x512_S512x128_S100000x128_1_0_0_1_n_n.lhsIdx i q 1).val = (q ⟨0, by decide⟩).val :=
  Cert.ReferenceIdeal.dot_S100000x512_S512x128_S100000x128_1_0_0_1_n_n.lhsIdx_val_of_single rfl i q
theorem wholeDot_rhs_0 (i : Cert.ReferenceIdeal.S100000x128.Idx) (q : Cert.ReferenceIdeal.dot_S100000x512_S512x128_S100000x128_1_0_0_1_n_n.contr.Idx) :
    (Cert.ReferenceIdeal.dot_S100000x512_S512x128_S100000x128_1_0_0_1_n_n.rhsIdx i q 0).val = (q ⟨0, by decide⟩).val :=
  Cert.ReferenceIdeal.dot_S100000x512_S512x128_S100000x128_1_0_0_1_n_n.rhsIdx_val_of_single rfl i q
theorem wholeDot_rhs_1 (i : Cert.ReferenceIdeal.S100000x128.Idx) (q : Cert.ReferenceIdeal.dot_S100000x512_S512x128_S100000x128_1_0_0_1_n_n.contr.Idx) :
    (Cert.ReferenceIdeal.dot_S100000x512_S512x128_S100000x128_1_0_0_1_n_n.rhsIdx i q 1).val = (i 1).val := by
  unfold DotDims.rhsIdx
  rw [dif_neg (show ¬(1 : Fin Cert.ReferenceIdeal.S512x128.rank) ∈ Cert.ReferenceIdeal.dot_S100000x512_S512x128_S100000x128_1_0_0_1_n_n.rhsBatch by decide), dif_pos (show (1 : Fin Cert.ReferenceIdeal.S512x128.rank) ∈ Cert.ReferenceIdeal.dot_S100000x512_S512x128_S100000x128_1_0_0_1_n_n.rhsNonContracting by decide)]
  rfl

/-- A block's product at row p, column q: the sum over the 512 inner coordinates k of the left block at (p, k) times
    the right operand at (k, q).  The change of float format is the identity over the reals and the accumulator is zero. -/
theorem blockProduct_apply (v0 : Vec Ideal S2000x512 .f32) (v2 : Vec Ideal S512x128 .f32) (p : Fin 2000) (q : Fin 128) :
    k0_pay1 (F := Ideal) v0 v2 (ix2 p q) = ∑ k : Fin 512, v0 (ix2 p k) * v2 (ix2 k q) := by
  unfold k0_pay1
  show FloatOps.matmul dot_S2000x512_S512x128_S2000x128_1_0_0_1_n_n none _ _ (constant S2000x128 .f32 0x00000000#32) (ix2 p q) = _
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx (ix2 p q) ((ValueIdx.contrEquiv1 dot_S2000x512_S512x128_S2000x128_1_0_0_1_n_n 512 rfl rfl).symm k) = ix2 p k := funext fun a => Fin.ext (by
    match a with
    | ⟨0, _⟩ => exact blockDot_lhs_0 _ _
    | ⟨1, _⟩ => exact (blockDot_lhs_1 _ _).trans hk)
  have er : dot_S2000x512_S512x128_S2000x128_1_0_0_1_n_n.rhsIdx (ix2 p q) ((ValueIdx.contrEquiv1 dot_S2000x512_S512x128_S2000x128_1_0_0_1_n_n 512 rfl rfl).symm k) = ix2 k q := funext fun a => Fin.ext (by
    match a with
    | ⟨0, _⟩ => exact (blockDot_rhs_0 _ _).trans hk
    | ⟨1, _⟩ => exact blockDot_rhs_1 _ _)
  rw [el, er]
  rfl

/-- The whole product x W1 at row r, column q: the same sum over the whole arrays. -/
theorem lin1_apply (x : (⟨Cert.ReferenceIdeal.S100000x512, .f32⟩ : BufTy).Contents (Elt Ideal)) (w : (⟨Cert.ReferenceIdeal.S512x128, .f32⟩ : BufTy).Contents (Elt Ideal))
    (r : Fin 100000) (q : Fin 128) :
    Cert.Gcn.lin1 (F := Ideal) x w (ix2 r q) = ∑ k : Fin 512, x (ix2 r k) * w (ix2 k q) := by
  simp only [Cert.Gcn.lin1, Host.dotGeneral]
  rw [Ideal.dotGeneral_apply, ← Equiv.sum_comp (ValueIdx.contrEquiv1 Cert.ReferenceIdeal.dot_S100000x512_S512x128_S100000x128_1_0_0_1_n_n 512 rfl rfl).symm]
  refine Finset.sum_congr rfl fun k _ => ?_
  have hk := ValueIdx.contrEquiv1_symm_val Cert.ReferenceIdeal.dot_S100000x512_S512x128_S100000x128_1_0_0_1_n_n 512 rfl rfl k
  have el : Cert.ReferenceIdeal.dot_S100000x512_S512x128_S100000x128_1_0_0_1_n_n.lhsIdx (ix2 r q) ((ValueIdx.contrEquiv1 Cert.ReferenceIdeal.dot_S100000x512_S512x128_S100000x128_1_0_0_1_n_n 512 rfl rfl).symm k) = ix2 r k := funext fun a => Fin.ext (by
    match a with
    | ⟨0, _⟩ => exact wholeDot_lhs_0 _ _
    | ⟨1, _⟩ => exact (wholeDot_lhs_1 _ _).trans hk)
  have er : Cert.ReferenceIdeal.dot_S100000x512_S512x128_S100000x128_1_0_0_1_n_n.rhsIdx (ix2 r q) ((ValueIdx.contrEquiv1 Cert.ReferenceIdeal.dot_S100000x512_S512x128_S100000x128_1_0_0_1_n_n 512 rfl rfl).symm k) = ix2 k q := funext fun a => Fin.ext (by
    match a with
    | ⟨0, _⟩ => exact (wholeDot_rhs_0 _ _).trans hk
    | ⟨1, _⟩ => exact wholeDot_rhs_1 _ _)
  rw [el, er]

/-! ## From a point's block to the array -/

/-- The stores and loads of the body go through the whole staging buffers: their offsets are zero. -/
theorem offsets_zero : (![0, 0] : Fin 2 → Nat) = fun _ => 0 := funext fun a => by fin_cases a <;> rfl

/-- The index maps, decided over the 50 points: at point t the output's block and x's block are block t along the
    rows and block 0 along the columns; W1's block is block (0, 0). -/
theorem index_maps : ∀ t : Fin cfg0.N, win0_2.index t (0 : Fin 2) = t.val
    ∧ win0_2.index t (1 : Fin 2) = 0
    ∧ win0_0.index t (0 : Fin 2) = t.val
    ∧ win0_0.index t (1 : Fin 2) = 0
    ∧ win0_1.index t (0 : Fin 2) = 0
    ∧ win0_1.index t (1 : Fin 2) = 0 :=
  (by decide +kernel : ∀ t : Fin grid0.N, _)

/-- A block's product against the whole product.  If row p of the left block is row r of x and column q of the right
    block is column q of W1, the block's product at (p, q) is x W1 at (r, q): the two sums over the inner coordinate
    agree term by term. -/
theorem blockProduct_eq_lin1 (x : (⟨Cert.ReferenceIdeal.S100000x512, .f32⟩ : BufTy).Contents (Elt Ideal))
    (w : (⟨Cert.ReferenceIdeal.S512x128, .f32⟩ : BufTy).Contents (Elt Ideal))
    (b0 : Vec Ideal S2000x512 .f32) (b1 : Vec Ideal S512x128 .f32) (p : Fin 2000) (q : Fin 128) (r : Fin 100000)
    (h0 : ∀ k : Fin 512, b0 (ix2 p k) = x (ix2 r k)) (h1 : ∀ k : Fin 512, b1 (ix2 k q) = w (ix2 k q)) :
    k0_pay1 (F := Ideal) b0 b1 (ix2 p q) = Cert.Gcn.lin1 (F := Ideal) x w (ix2 r q) := by
  rw [blockProduct_apply, lin1_apply]
  exact Finset.sum_congr rfl fun k _ => by rw [h0 k, h1 k]

/-- What point t writes back is block t of x W1 of the arrays the region finds. -/
theorem flushed_eq (c : Dev nD) (t : Fin cfg0.N) :
    (dat0 (F := Ideal) V c).flushed 2 t
      = ((cfg0.win 2).blk t).view.read (Elt Ideal) (Cert.Gcn.lin1 (F := Ideal) (V c main_arg0) (V c main_arg2)) := by
  show (cfg0.win 2).cut (grid0.coords t) ((dat0 V c).after 2 t) = _
  rw [after0_2]
  unfold out0_2
  rw [View.canon_unit_zero offsets_zero]
  simp only [View.ld_unit_zero (S := S2000x512) offsets_zero, View.ld_unit_zero (S := S512x128) offsets_zero]
  obtain ⟨e0, e1, e2, e3, e4, e5⟩ := index_maps t
  have ht : t.val < 50 := lt_of_lt_of_eq t.isLt N_0
  funext j
  obtain ⟨p, q, rfl⟩ : ∃ (p : Fin 2000) (q : Fin 128), j = ix2 p q := ⟨j 0, j 1, eq_ix2 j⟩
  have hr : t.val * 2000 + p.val < 100000 := by have := p.isLt; omega
  -- the block's entry (p, q) sits at row 2000 t + p, column q of the array
  have hout : ((cfg0.win 2).blk t).view.emb (ix2 p q) = ix2 (⟨t.val * 2000 + p.val, hr⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show k0_pay1 (F := Ideal) (iblk0 V c 0 t) (iblk0 V c 1 t) (ix2 p q)
    = Cert.Gcn.lin1 (F := Ideal) (V c main_arg0) (V c main_arg2) (((cfg0.win 2).blk t).view.emb (ix2 p q))
  rw [hout]
  refine blockProduct_eq_lin1 _ _ _ _ p q _ (fun k => ?_) (fun k => ?_)
  · -- x's block at (p, k) is x at (2000 t + p, k)
    show V c main_arg0 (((cfg0.win 0).blk t).view.emb (ix2 p k)) = V c main_arg0 (ix2 (⟨t.val * 2000 + p.val, hr⟩ : Fin 100000) k)
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 512 + 1 * k.val = k.val; omega
  · -- W1's block is W1
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 128 + 1 * q.val = q.val; omega

/-- An index of the array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The blocks cover the array: row r lies in the block of point r / 2000, and every point writes its block back. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  obtain ⟨e0, e1, -⟩ := index_maps t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The array region 0 leaves is the first dense layer of the arrays it found. -/
theorem value (c : Dev nD) :
    (dat0 (F := Ideal) V c).arrAt 2 cfg0.N = Cert.Gcn.lin1 (F := Ideal) (V c main_arg0) (V c main_arg2) :=
  (dat0 V c).arrAt_eq_of_cover 2 _ (fun t _ => flushed_eq V c t) cover

end Cert.KernelIdeal.Region0

end
-- ==== Proof.Region1.lean ====
/-
  Region 1 (the second dense layer on the rectified first).  Point t takes rows 2000 t … 2000 t + 1999 of the
  aggregated table a, the bias as one row, and all of W2, and writes back the same rows of relu (a + b) W2.  Over the
  exact reals the block's entries are the sums over the 128 inner coordinates of max (a + b, 0) times W2's entry, which
  is the whole product read at that row.
-/
import proofs.«147324_j32229434589358_1_alg».proof.Proof.Gen.KernelIdeal.Frame
import proofs.«147324_j32229434589358_1_alg».proof.Proof.Gen.ReferenceIdeal
import proofs.«147324_j32229434589358_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

-- the buffer contents when the region is entered, at the exact reals: any contents at all
variable (V : (c : Dev nD) → (b : Ref sig .tc) → Buf (Elt Ideal) ((c : Thread nD τ).loc b))

/-! ## The two contractions' operand indices, axis by axis

Both products contract the left operand's second axis against the right operand's first; the left operand's row is the
output's row, the right operand's column is the output's column. -/

theorem blockDot_lhs_0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem blockDot_lhs_1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
theorem blockDot_rhs_0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
theorem blockDot_rhs_1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

theorem wholeDot_lhs_0 (i : Cert.ReferenceIdeal.S100000x40.Idx) (q : Cert.ReferenceIdeal.dot_S100000x128_S128x40_S100000x40_1_0_0_1_n_n.contr.Idx) :
    (Cert.ReferenceIdeal.dot_S100000x128_S128x40_S100000x40_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x40_S100000x40_1_0_0_1_n_n.lhsBatch by decide), dif_pos (show (0 : Fin Cert.ReferenceIdeal.S100000x128.rank) ∈ Cert.ReferenceIdeal.dot_S100000x128_S128x40_S100000x40_1_0_0_1_n_n.lhsNonContracting by decide)]
  rfl
theorem wholeDot_lhs_1 (i : Cert.ReferenceIdeal.S100000x40.Idx) (q : Cert.ReferenceIdeal.dot_S100000x128_S128x40_S100000x40_1_0_0_1_n_n.contr.Idx) :
    (Cert.ReferenceIdeal.dot_S100000x128_S128x40_S100000x40_1_0_0_1_n_n.lhsIdx i q 1).val = (q ⟨0, by decide⟩).val :=
  Cert.ReferenceIdeal.dot_S100000x128_S128x40_S100000x40_1_0_0_1_n_n.lhsIdx_val_of_single rfl i q
theorem wholeDot_rhs_0 (i : Cert.ReferenceIdeal.S100000x40.Idx) (q : Cert.ReferenceIdeal.dot_S100000x128_S128x40_S100000x40_1_0_0_1_n_n.contr.Idx) :
    (Cert.ReferenceIdeal.dot_S100000x128_S128x40_S100000x40_1_0_0_1_n_n.rhsIdx i q 0).val = (q ⟨0, by decide⟩).val :=
  Cert.ReferenceIdeal.dot_S100000x128_S128x40_S100000x40_1_0_0_1_n_n.rhsIdx_val_of_single rfl i q
theorem wholeDot_rhs_1 (i : Cert.ReferenceIdeal.S100000x40.Idx) (q : Cert.ReferenceIdeal.dot_S100000x128_S128x40_S100000x40_1_0_0_1_n_n.contr.Idx) :
    (Cert.ReferenceIdeal.dot_S100000x128_S128x40_S100000x40_1_0_0_1_n_n.rhsIdx i q 1).val = (i 1).val := by
  unfold DotDims.rhsIdx
  rw [dif_neg (show ¬(1 : Fin Cert.ReferenceIdeal.S128x40.rank) ∈ Cert.ReferenceIdeal.dot_S100000x128_S128x40_S100000x40_1_0_0_1_n_n.rhsBatch by decide), dif_pos (show (1 : Fin Cert.ReferenceIdeal.S128x40.rank) ∈ Cert.ReferenceIdeal.dot_S100000x128_S128x40_S100000x40_1_0_0_1_n_n.rhsNonContracting by decide)]
  rfl

/-! ## One entry of a block's product

Entry (p, q) of what a point stores is the sum over the 128 inner coordinates k of max (x (p, k) + bias (0, k), 0) times
W2 (k, q): the roundings to the narrower format are the identity over the exact reals, the same-shape reshapes are the
identity, the one-row bias is repeated down the 2000 rows, and the accumulator starts at zero. -/

theorem pay_apply (x0 : Vec Ideal S2000x128 .f32) (x1 : Vec Ideal S1x128 .f32) (x2 : Vec Ideal S128x40 .f32)
    (p : Fin 2000) (q : Fin 40) :
    k1_pay1 (F := Ideal) x0 x1 x2 (ix2 p q)
      = ∑ k : Fin 128, max (x0 (ix2 p k) + x1 (ix2 (0 : Fin 1) k)) (Ideal.ofBits .f32 0x00000000#32) * x2 (ix2 k q) := by
  unfold k1_pay1
  simp only [matmul]
  rw [Ideal.matmul_constant_zero_apply, ← Equiv.sum_comp (ValueIdx.contrEquiv1 dot_S2000x128_S128x40_S2000x40_1_0_0_1_n_n 128 rfl rfl).symm]
  refine Finset.sum_congr rfl fun k _ => ?_
  have hk := ValueIdx.contrEquiv1_symm_val dot_S2000x128_S128x40_S2000x40_1_0_0_1_n_n 128 rfl rfl k
  have el : dot_S2000x128_S128x40_S2000x40_1_0_0_1_n_n.lhsIdx (ix2 p q) ((ValueIdx.contrEquiv1 dot_S2000x128_S128x40_S2000x40_1_0_0_1_n_n 128 rfl rfl).symm k) = ix2 p k := funext fun a => Fin.ext (by
    match a with
    | ⟨0, _⟩ => exact blockDot_lhs_0 _ _
    | ⟨1, _⟩ => exact (blockDot_lhs_1 _ _).trans hk)
  have er : dot_S2000x128_S128x40_S2000x40_1_0_0_1_n_n.rhsIdx (ix2 p q) ((ValueIdx.contrEquiv1 dot_S2000x128_S128x40_S2000x40_1_0_0_1_n_n 128 rfl rfl).symm k) = ix2 k q := funext fun a => Fin.ext (by
    match a with
    | ⟨0, _⟩ => exact (blockDot_rhs_0 _ _).trans hk
    | ⟨1, _⟩ => exact blockDot_rhs_1 _ _)
  rw [el, er, shapeCast_self, shapeCast_self]
  have hrow : broadcastTo S2000x128 x1 broadcasts_S1x128_S2000x128 (ix2 p k) = x1 (ix2 (0 : Fin 1) k) :=
    broadcastTo_apply x1 broadcasts_S1x128_S2000x128 (ix2 p k) (ix2 (0 : Fin 1) k) (fun a => by
      match a with
      | ⟨0, _⟩ => rfl
      | ⟨1, _⟩ => rfl)
  show max (x0 (ix2 p k) + broadcastTo S2000x128 x1 broadcasts_S1x128_S2000x128 (ix2 p k)) (Ideal.ofBits .f32 0x00000000#32) * x2 (ix2 k q) = _
  rw [hrow]

/-! ## One entry of the whole product

Entry (r, q) of the second dense layer is the sum over the 128 inner coordinates k of max (a (r, k) + b k, 0) times
W2 (k, q): the bias vector is laid along the columns of a one-row array, that row is repeated down the rows, and the zero
it is compared with is one scalar repeated everywhere. -/

theorem lin2_apply (a : (⟨Cert.ReferenceIdeal.S100000x128, .f32⟩ : BufTy).Contents (Elt Ideal))
    (b : (⟨Cert.ReferenceIdeal.S128, .f32⟩ : BufTy).Contents (Elt Ideal))
    (w : (⟨Cert.ReferenceIdeal.S128x40, .f32⟩ : BufTy).Contents (Elt Ideal)) (r : Fin 100000) (q : Fin 40) :
    Cert.Gcn.lin2 (F := Ideal) a b w (ix2 r q)
      = ∑ k : Fin 128, max (a (ix2 r k) + b (ix1 k)) (Ideal.ofBits .f32 0x00000000#32) * w (ix2 k q) := by
  simp only [Cert.Gcn.lin2, Host.dotGeneral]
  rw [Ideal.dotGeneral_apply, ← Equiv.sum_comp (ValueIdx.contrEquiv1 Cert.ReferenceIdeal.dot_S100000x128_S128x40_S100000x40_1_0_0_1_n_n 128 rfl rfl).symm]
  refine Finset.sum_congr rfl fun k _ => ?_
  have hk := ValueIdx.contrEquiv1_symm_val Cert.ReferenceIdeal.dot_S100000x128_S128x40_S100000x40_1_0_0_1_n_n 128 rfl rfl k
  have el : Cert.ReferenceIdeal.dot_S100000x128_S128x40_S100000x40_1_0_0_1_n_n.lhsIdx (ix2 r q) ((ValueIdx.contrEquiv1 Cert.ReferenceIdeal.dot_S100000x128_S128x40_S100000x40_1_0_0_1_n_n 128 rfl rfl).symm k) = ix2 r k := funext fun a => Fin.ext (by
    match a with
    | ⟨0, _⟩ => exact wholeDot_lhs_0 _ _
    | ⟨1, _⟩ => exact (wholeDot_lhs_1 _ _).trans hk)
  have er : Cert.ReferenceIdeal.dot_S100000x128_S128x40_S100000x40_1_0_0_1_n_n.rhsIdx (ix2 r q) ((ValueIdx.contrEquiv1 Cert.ReferenceIdeal.dot_S100000x128_S128x40_S100000x40_1_0_0_1_n_n 128 rfl rfl).symm k) = ix2 k q := funext fun a => Fin.ext (by
    match a with
    | ⟨0, _⟩ => exact (wholeDot_rhs_0 _ _).trans hk
    | ⟨1, _⟩ => exact wholeDot_rhs_1 _ _)
  rw [el, er]
  unfold Cert.Gcn.hidden
  have hbias : broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ix2 r k) = b (ix1 k) := by
    rw [broadcastInDim_apply _ _ _ (ix2 r k) (ix2 (0 : Fin 1) k) (fun a => by
          match a with
          | ⟨0, _⟩ => rfl
          | ⟨1, _⟩ => rfl),
      broadcastInDim_apply _ _ _ (ix2 (0 : Fin 1) k) (ix1 k) (fun a => by
          match a with
          | ⟨0, _⟩ => rfl)]
  have hzero : broadcastInDim Cert.ReferenceIdeal.S100000x128 ![] Cert.ReferenceIdeal.Facts₀.bcast_S_S100000x128
      (constant (F := Ideal) Cert.ReferenceIdeal.S_ .f32 0x00000000#32) (ix2 r k) = Ideal.ofBits .f32 0x00000000#32 := by
    rw [broadcastInDim_apply _ _ _ (ix2 r k) ix0 (fun a => a.elim0)]
    rfl
  show max (a (ix2 r k) + broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ix2 r k))
      (broadcastInDim Cert.ReferenceIdeal.S100000x128 ![] Cert.ReferenceIdeal.Facts₀.bcast_S_S100000x128
      (constant (F := Ideal) Cert.ReferenceIdeal.S_ .f32 0x00000000#32) (ix2 r k)) * w (ix2 k q) = _
  rw [hbias, hzero]

/-! ## The blocks of the four windows

Point t of the 50 takes block (t, 0) of the aggregated table (2000 rows by 128 columns) and writes block (t, 0) of the
output (2000 rows by 40 columns); the one-row bias and W2 are taken whole at every point. -/

theorem zero_offsets : (![0, 0] : Fin 2 → Nat) = fun _ => 0 := funext fun a => by fin_cases a <;> rfl

/-- The printed index maps, decided over the grid: the row block of the table and of the output is the point's number,
    every other block index is zero. -/
theorem index_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Entry (p, k) of the table's block at point t is entry (2000 t + p, k) of the table. -/
theorem rows_read (c : Dev nD) (t : Fin cfg1.N) (p : Fin 2000) (k : Fin 128) (r : Fin 100000)
    (hr : r.val = 2000 * t.val + p.val) :
    (iblk1 (F := Ideal) V c 0 t : Vec Ideal S2000x128 .f32) (ix2 p k)
      = (V c main_v43 : S100000x128.Idx → Elt Ideal .f32) (ix2 r k) := by
  obtain ⟨e0, e1, -⟩ := index_facts t
  unfold iblk1
  rw [View.read_apply]
  show V c main_v43 (((cfg1.win 0).blk t).view.emb (ix2 p k)) = V c main_v43 (ix2 r k)
  refine congrArg (V c main_v43) (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Entry (0, k) of the bias's block at any point is entry k of the vector the one-row array was reshaped from. -/
theorem bias_read (c : Dev nD) (b : (⟨Cert.ReferenceIdeal.S128, .f32⟩ : BufTy).Contents (Elt Ideal))
    (hb : V c main_v44 = shapeCast S1x128 b shapeCasts_S128_S1x128) (t : Fin cfg1.N) (k : Fin 128) :
    (iblk1 (F := Ideal) V c 1 t : Vec Ideal S1x128 .f32) (ix2 (0 : Fin 1) k) = b (ix1 k) := by
  obtain ⟨-, -, e2, e3, -⟩ := index_facts t
  unfold iblk1
  rw [View.read_apply]
  have hemb : ((cfg1.win 1).blk t).view.emb (ix2 (0 : Fin 1) k) = (ix2 (0 : Fin 1) k : S1x128.Idx) :=
    funext fun a => Fin.ext (by
      match a with
      | ⟨0, _⟩ => show win1_1.index t (0 : Fin 2) * 1 + 1 * 0 = 0; omega
      | ⟨1, _⟩ => show win1_1.index t (1 : Fin 2) * 128 + 1 * k.val = k.val; omega)
  show V c main_v44 (((cfg1.win 1).blk t).view.emb (ix2 (0 : Fin 1) k)) = b (ix1 k)
  rw [hemb, hb]
  exact shapeCast_a_1a_apply b shapeCasts_S128_S1x128 (0 : Fin 1) k

/-- Entry (k, q) of W2's block at any point is entry (k, q) of W2. -/
theorem weights_read (c : Dev nD) (t : Fin cfg1.N) (k : Fin 128) (q : Fin 40) :
    (iblk1 (F := Ideal) V c 2 t : Vec Ideal S128x40 .f32) (ix2 k q)
      = (V c main_arg4 : S128x40.Idx → Elt Ideal .f32) (ix2 k q) := by
  obtain ⟨-, -, -, -, e4, e5, -⟩ := index_facts t
  unfold iblk1
  rw [View.read_apply]
  show V c main_arg4 (((cfg1.win 2).blk t).view.emb (ix2 k q)) = V c main_arg4 (ix2 k q)
  refine congrArg (V c main_arg4) (funext fun a => Fin.ext ?_)
  match a with
  | ⟨0, _⟩ => show win1_2.index t (0 : Fin 2) * 128 + 1 * k.val = k.val; omega
  | ⟨1, _⟩ => show win1_2.index t (1 : Fin 2) * 40 + 1 * q.val = q.val; omega

/-- WHAT POINT t WRITES BACK is block (t, 0) of the second dense layer of the arrays the region found: entry (p, q) of the
    stored product and entry (2000 t + p, q) of the whole product are the same sum, term by term. -/
theorem flushed_eq (c : Dev nD) (b : (⟨Cert.ReferenceIdeal.S128, .f32⟩ : BufTy).Contents (Elt Ideal))
    (hb : V c main_v44 = shapeCast S1x128 b shapeCasts_S128_S1x128) (t : Fin cfg1.N) :
    (dat1 (F := Ideal) V c).flushed 3 t
      = ((cfg1.win 3).blk t).view.read (Elt Ideal) (Cert.Gcn.lin2 (F := Ideal) (V c main_v43) b (V c main_arg4)) := by
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S1x128) zero_offsets,
    View.ld_unit_zero (S := S128x40) zero_offsets]
  obtain ⟨-, -, -, -, -, -, e6, e7⟩ := index_facts t
  have hN : cfg1.N = 50 := N_1
  have ht : t.val < 50 := by have h := t.isLt; omega
  funext j
  obtain ⟨p, q, rfl⟩ : ∃ (p : Fin 2000) (q : Fin 40), j = ix2 p q := ⟨j 0, j 1, eq_ix2 j⟩
  have hemb : ((cfg1.win 3).blk t).view.emb (ix2 p q)
      = (ix2 (⟨2000 * t.val + p.val, by omega⟩ : Fin 100000) q : S100000x40.Idx) :=
    funext fun a => Fin.ext (by
      match a with
      | ⟨0, _⟩ => show win1_3.index t (0 : Fin 2) * 2000 + 1 * p.val = 2000 * t.val + p.val; omega
      | ⟨1, _⟩ => show win1_3.index t (1 : Fin 2) * 40 + 1 * q.val = q.val; omega)
  show k1_pay1 (F := Ideal) (iblk1 V c 0 t) (iblk1 V c 1 t) (iblk1 V c 2 t) (ix2 p q)
    = Cert.Gcn.lin2 (F := Ideal) (V c main_v43) b (V c main_arg4) (((cfg1.win 3).blk t).view.emb (ix2 p q))
  rw [hemb, lin2_apply]
  refine (pay_apply (iblk1 V c 0 t) (iblk1 V c 1 t) (iblk1 V c 2 t) p q).trans ?_
  refine Finset.sum_congr rfl fun k _ => ?_
  rw [rows_read V c t p k ⟨2000 * t.val + p.val, by omega⟩ rfl, bias_read V c b hb t k, weights_read V c t k q]

/-- An index of the output is in point t's block iff each coordinate is in the block's range on its axis. -/
theorem mem_blk (t : Fin cfg1.N) (i : S100000x40.Idx) :
    i ∈ ((cfg1.win 3).blk t).view.set ↔ ∀ a : Fin 2, win1_3.index t a * S2000x40.size a ≤ (i a).val
      ∧ (i a).val < win1_3.index t a * S2000x40.size a + S2000x40.size a := by
  show i ∈ ((View.whole main_v45).slice (win1_3.rect t)).set ↔ _
  rw [View.set_slice_whole, Rect.mem_set_unit]
  exact Iff.rfl

/-- Every entry of the output is written back by some point: row r by point r / 2000. -/
theorem covered (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, e6, e7⟩ := index_facts t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 40 ≤ (i 1).val ∧ (i 1).val < win1_3.index t (1 : Fin 2) * 40 + 40; omega

/-- The array region 1 leaves is the second dense layer of the arrays it found, the bias being the vector `b` the one-row
    array was reshaped from. -/
theorem value (c : Dev nD) (b : (⟨Cert.ReferenceIdeal.S128, .f32⟩ : BufTy).Contents (Elt Ideal))
    (hb : V c main_v44 = shapeCast S1x128 b shapeCasts_S128_S1x128) :
    (dat1 (F := Ideal) V c).arrAt 3 cfg1.N = Cert.Gcn.lin2 (F := Ideal) (V c main_v43) b (V c main_arg4) :=
  (dat1 (F := Ideal) V c).arrAt_eq_of_cover 3 (Cert.Gcn.lin2 (F := Ideal) (V c main_v43) b (V c main_arg4))
    (fun t _ => flushed_eq V c b hb t) covered

end Cert.KernelIdeal.Region1

end
-- ==== Proof.Region2.lean ====
/-
  Region 2 (the row-wise log-softmax).  Point t takes rows 2000 t … 2000 t + 1999 of the aggregated table a and the
  bias as one row, and writes back, for each of its rows, y - M - log (Σ_j exp (y_j - M)) with y = a + b and M the row's
  maximum.  A row's maximum and sum read only that row, so the block's value is the whole array's log-softmax read at
  that row; the reference's second maximum against -∞ changes nothing.

  The module in three steps.  (1) One row's log-softmax as a function of the row's 40 entries (`rowLsm`), and the two
  sides read at an entry as that function: the block computation at row p of a block plus the bias row (`pay_apply`:
  each lane reduction is a fold or a sum over the 40 lanes of row p, each keep-dims column is read back at its row),
  and the whole-array specification at row P (`lsm_apply`: the same, the fold from -∞ absorbing the extra maximum, the
  sum's initial zero adding nothing).  (2) Entry (p, q) of the block of point t sits at row 2000 t + p, lane q, of the
  array, for the table and the output alike, and the bias row is read whole; so what point t writes back is block t of
  the specification (`flushed_eq`).  (3) Row r lies in the block of point r / 2000, so the blocks cover the array and the
  array ends holding the specification (`value`).
-/
import proofs.«147324_j32229434589358_1_alg».proof.Proof.Gen.KernelIdeal.Frame
import proofs.«147324_j32229434589358_1_alg».proof.Proof.Gen.ReferenceIdeal
import proofs.«147324_j32229434589358_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)
open Idealize.ShloMosaic.ValueIdx

-- the buffer contents when the region is entered, at the exact reals: any contents at all
variable (V : (c : Dev nD) → (b : Ref sig .tc) → Buf (Elt Ideal) ((c : Thread nD τ).loc b))

/-- The greatest of a row's 40 entries (the fold of max from minus infinity). -/
def rowTop (y : Fin 40 → EReal) : EReal :=
  (Finset.univ : Finset (Fin 40)).fold max (Ideal.ofBits .f32 0xFF800000#32) y

/-- The log-softmax of one row of 40 entries, at lane q: y q - M - log (Σ_l exp (y l - M)), M the row's greatest entry. -/
def rowLsm (y : Fin 40 → EReal) (q : Fin 40) : EReal :=
  (y q - rowTop y) - Ideal.log (∑ l : Fin 40, Ideal.exp (y l - rowTop y))

/-- Over a row index p of an n-row, m-column array, the index with lane k put back on the dropped axis is (p, k). -/
theorem lift_row {n m : Nat} (h : (⟨2, ![n, m]⟩ : Shape).Reduces [1] ⟨1, ![n]⟩) (p : Fin n) (k : Fin m) :
    h.lift (ix1 p) k = ix2 p k := by
  funext c
  apply Fin.ext
  match c with
  | ⟨0, _⟩ => rfl
  | ⟨1, _⟩ => rfl

/-- A column [a] cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the operand's row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A kernel's row maximum over the 40 lanes, read at row p. -/
theorem kernelMax_apply (v : FVec Ideal S2000x40 .f32) (hφ : FKind.Formats .f32)
    (hacc : (0xFF800000#32 : BitVec 32) = 0xFF800000#32) (p : Fin 2000) :
    multiReduction (F := Ideal) .maximumf [1] S2000 v 0xFF800000#32 reduces_S2000x40_S2000 hφ hacc (ix1 p)
      = rowTop (fun l => v (ix2 p l)) := by
  refine (Ideal.multiReduction_maximumf_single v 0xFF800000#32 reduces_S2000x40_S2000 hφ hacc (ix1 p)).trans ?_
  unfold rowTop
  have hf : (v ∘ reduces_S2000x40_S2000.lift (ix1 p)) = fun l : Fin 40 => v (ix2 p l) := by
    funext l
    exact congrArg v (lift_row reduces_S2000x40_S2000 p l)
  rw [hf]
  rfl

/-- A kernel's row sum over the 40 lanes, read at row p. -/
theorem kernelSum_apply (v : FVec Ideal S2000x40 .f32) (hφ : FKind.Formats .f32)
    (hacc : (0x00000000#32 : BitVec 32) = 0x00000000#32) (p : Fin 2000) :
    multiReduction (F := Ideal) .add [1] S2000 v 0x00000000#32 reduces_S2000x40_S2000 hφ hacc (ix1 p)
      = ∑ l : Fin 40, v (ix2 p l) := by
  refine (Ideal.multiReduction_add_single v 0x00000000#32 reduces_S2000x40_S2000 hφ hacc (ix1 p)).trans ?_
  exact Finset.sum_congr rfl fun l _ => congrArg v (lift_row reduces_S2000x40_S2000 p l)

/-- The kernel's chain after the bias is added, on any block y: at row p, lane q, the row log-softmax of row p of y. -/
theorem chain_apply (y : FVec Ideal S2000x40 .f32) (hφ : FKind.Formats .f32)
    (h1 : (0xFF800000#32 : BitVec 32) = 0xFF800000#32) (h0 : (0x00000000#32 : BitVec 32) = 0x00000000#32)
    (p : Fin 2000) (q : Fin 40) :
    subf
      (subf y (broadcastTo S2000x40 (shapeCast S2000x1
        (multiReduction (F := Ideal) .maximumf [1] S2000 y 0xFF800000#32 reduces_S2000x40_S2000 hφ h1)
        shapeCasts_S2000_S2000x1) broadcasts_S2000x1_S2000x40))
      (broadcastTo S2000x40 (log (shapeCast S2000x1
        (multiReduction (F := Ideal) .add [1] S2000
          (exp (subf y (broadcastTo S2000x40 (shapeCast S2000x1
            (multiReduction (F := Ideal) .maximumf [1] S2000 y 0xFF800000#32 reduces_S2000x40_S2000 hφ h1)
            shapeCasts_S2000_S2000x1) broadcasts_S2000x1_S2000x40)))
          0x00000000#32 reduces_S2000x40_S2000 hφ h0)
        shapeCasts_S2000_S2000x1)) broadcasts_S2000x1_S2000x40)
      (ix2 p q)
    = rowLsm (fun l => y (ix2 p l)) q := by
  have hs : ∀ l : Fin 40, subf y (broadcastTo S2000x40 (shapeCast S2000x1
        (multiReduction (F := Ideal) .maximumf [1] S2000 y 0xFF800000#32 reduces_S2000x40_S2000 hφ h1)
        shapeCasts_S2000_S2000x1) broadcasts_S2000x1_S2000x40) (ix2 p l)
      = y (ix2 p l) - rowTop (fun l => y (ix2 p l)) := by
    intro l
    rw [subf_apply, broadcastTo_a1_ab_apply, shapeCast_a_a1_apply, kernelMax_apply]
  rw [subf_apply, hs q, broadcastTo_a1_ab_apply]
  show _ - Ideal.log (shapeCast S2000x1 _ shapeCasts_S2000_S2000x1 (ix2 p (0 : Fin 1))) = _
  rw [shapeCast_a_a1_apply, kernelSum_apply]
  unfold rowLsm
  refine congrArg (fun z => _ - Ideal.log z) (Finset.sum_congr rfl fun l _ => ?_)
  show Ideal.exp (subf y _ (ix2 p l)) = _
  rw [hs l]

/-- The kernel's payload at row p, lane q: the row log-softmax of row p of the block plus the bias row. -/
theorem pay_apply (x0 : Vec Ideal S2000x40 .f32) (x1 : Vec Ideal S1x40 .f32) (p : Fin 2000) (q : Fin 40) :
    k2_pay1 (F := Ideal) x0 x1 (ix2 p q) = rowLsm (fun l => x0 (ix2 p l) + x1 (ix2 (0 : Fin 1) l)) q := by
  unfold k2_pay1
  dsimp only
  rw [shapeCast_self, shapeCast_self]
  refine (chain_apply _ _ _ _ p q).trans ?_
  refine congrArg (fun f => rowLsm f q) (funext fun l => ?_)
  rw [addf_apply, broadcastTo_1b_ab_apply]
/-- The 100000-row array reduces over its 40 lanes to one entry per row. -/
theorem rowsReduce : Cert.ReferenceIdeal.S100000x40.Reduces [1] Cert.ReferenceIdeal.S100000 := by decide

/-- The reference's row maximum, read at row P: the second maximum against minus infinity changes nothing, the fold
    already starting there. -/
theorem refTop_apply (Y : (⟨Cert.ReferenceIdeal.S100000x40, .f32⟩ : BufTy).Contents (Elt Ideal)) (P : Fin 100000) :
    Cert.Gcn.rowMax (F := Ideal) Y (ix1 P) = rowTop (fun l => Y (ix2 P l)) := by
  unfold Cert.Gcn.rowMax
  refine (maximumf_apply _ _ (ix1 P)).trans ?_
  refine (congrArg (max _) (Host.reduce_eq_fold_single (FloatOps.maximumf (F := Ideal) (φ := .f32)) Y _ _ rowsReduce _ (ix1 P))).trans ?_
  have hf : (Y ∘ rowsReduce.lift (ix1 P)) = fun l : Fin 40 => Y (ix2 P l) :=
    funext fun l => congrArg Y (lift_row rowsReduce P l)
  rw [hf]
  exact max_eq_right ((Finset.le_fold_max _).2 (Or.inl le_rfl))

/-- A column [a, 1] spread over b lanes reads, at (p, c), the operand's row p. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] made a column [a, 1] reads, at (p, u), the operand at p. -/
theorem broadcastInDim_a_a1_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- One row [1, b] spread over a rows reads, at (p, c), the operand's one row at c. -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector [b] made one row [1, b] reads, at (u, c), the operand at c. -/
theorem broadcastInDim_b_1b_apply {α : Type} {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The reference's shifted entries, read at (P, l). -/
theorem refShifted_apply (Y : (⟨Cert.ReferenceIdeal.S100000x40, .f32⟩ : BufTy).Contents (Elt Ideal)) (P : Fin 100000) (l : Fin 40) :
    Cert.Gcn.shifted (F := Ideal) Y (ix2 P l) = Y (ix2 P l) - rowTop (fun l => Y (ix2 P l)) := by
  unfold Cert.Gcn.shifted
  refine (subf_apply _ _ (ix2 P l)).trans ?_
  refine congrArg (Y (ix2 P l) - ·) ?_
  refine (broadcastInDim_a1_ab_apply _ _ P l).trans ?_
  refine (broadcastInDim_a_a1_apply _ _ P (0 : Fin 1)).trans ?_
  exact refTop_apply Y P
/-- The host's logarithm and exponential at the exact values, read at an index. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The reference's row sum of exponentials of shifted entries, read at row P: the initial zero adds nothing. -/
theorem refSum_apply (Z : (⟨Cert.ReferenceIdeal.S100000x40, .f32⟩ : BufTy).Contents (Elt Ideal)) (P : Fin 100000) :
    Host.reduceAdd (F := Ideal) Z (constant (F := Ideal) Cert.ReferenceIdeal.S_ .f32 0x00000000#32)
        Cert.ReferenceIdeal.Facts₀.reducesTo_S100000x40_S100000_d1 Cert.ReferenceIdeal.Facts₀.h_S_ (ix1 P)
      = ∑ l : Fin 40, Z (ix2 P l) := by
  show Ideal.hostReduceAdd _ Z (Ideal.ofBits .f32 0x00000000#32) (ix1 P) = _
  rw [Ideal.hostReduceAdd_single _ rowsReduce, Ideal.ofBits_zero_f32, zero_add]
  exact Finset.sum_congr rfl fun l _ => congrArg Z (lift_row rowsReduce P l)

/-- The reference's log-softmax read at (P, q): the row log-softmax of row P. -/
theorem refLogSoftmax_apply (Y : (⟨Cert.ReferenceIdeal.S100000x40, .f32⟩ : BufTy).Contents (Elt Ideal)) (P : Fin 100000) (q : Fin 40) :
    Cert.Gcn.logSoftmax (F := Ideal) Y (ix2 P q) = rowLsm (fun l => Y (ix2 P l)) q := by
  unfold Cert.Gcn.logSoftmax
  refine (subf_apply _ _ (ix2 P q)).trans ?_
  unfold rowLsm
  refine congrArg₂ (· - ·) (refShifted_apply Y P q) ?_
  refine (broadcastInDim_a1_ab_apply _ _ P q).trans ?_
  refine (hostLog_apply _ _).trans ?_
  refine congrArg Ideal.log ?_
  refine (broadcastInDim_a_a1_apply _ _ P (0 : Fin 1)).trans ?_
  refine (refSum_apply _ P).trans ?_
  refine Finset.sum_congr rfl fun l _ => ?_
  refine (hostExp_apply _ _).trans ?_
  rw [refShifted_apply]

/-- The last stage of the network read at (P, q): the row log-softmax of row P of a plus the bias. -/
theorem lsm_apply (a : (⟨Cert.ReferenceIdeal.S100000x40, .f32⟩ : BufTy).Contents (Elt Ideal))
    (b : (⟨Cert.ReferenceIdeal.S40, .f32⟩ : BufTy).Contents (Elt Ideal)) (P : Fin 100000) (q : Fin 40) :
    Cert.Gcn.lsm (F := Ideal) a b (ix2 P q) = rowLsm (fun l => a (ix2 P l) + b (ix1 l)) q := by
  unfold Cert.Gcn.lsm
  refine (refLogSoftmax_apply _ P q).trans ?_
  refine congrArg (fun f => rowLsm f q) (funext fun l => ?_)
  unfold Cert.Gcn.logits
  refine (addf_apply _ _ (ix2 P l)).trans ?_
  refine congrArg (a (ix2 P l) + ·) ?_
  refine (broadcastInDim_1b_ab_apply _ _ P l).trans ?_
  exact broadcastInDim_b_1b_apply _ _ (0 : Fin 1) l
/-- A rectangle at offsets (0, 0) is at the zero offsets. -/
theorem zeroOffsets : (![0, 0] : Fin 2 → Nat) = fun _ => 0 := funext fun a => by fin_cases a <;> rfl

/-- The three windows' block indices at point t, decided over the 50 points: the table and the output move down by
    one block of rows with t, the bias row stays where it is. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back, entry (p, q) of its block: the network's last stage at row 2000 t + p, lane q. -/
theorem written_apply (c : Dev nD) (b : (⟨Cert.ReferenceIdeal.S40, .f32⟩ : BufTy).Contents (Elt Ideal))
    (hb : V c main_v59 = shapeCast S1x40 b shapeCasts_S40_S1x40) (t : Fin cfg2.N) (p : Fin 2000) (q : Fin 40) :
    k2_pay1 (F := Ideal) (iblk2 V c 0 t) (iblk2 V c 1 t) (ix2 p q)
      = Cert.Gcn.lsm (F := Ideal) (V c main_v58) b (((cfg2.win 2).blk t).view.emb (ix2 p q)) := by
  obtain ⟨e00, e01, e10, e11, e20, e21⟩ := block_index t
  have ht : t.val < 50 := lt_of_lt_of_eq t.isLt N_2
  have hrow : 2000 * t.val + p.val < 100000 := by have := p.isLt; omega
  have hout : ((cfg2.win 2).blk t).view.emb (ix2 p q) = ix2 (⟨2000 * t.val + p.val, hrow⟩ : Fin 100000) q := by
    funext a; apply Fin.ext
    match a with
    | ⟨0, _⟩ => show win2_2.index t (0 : Fin 2) * 2000 + 1 * p.val = 2000 * t.val + p.val; omega
    | ⟨1, _⟩ => show win2_2.index t (1 : Fin 2) * 40 + 1 * q.val = q.val; omega
  rw [hout]
  refine (pay_apply _ _ p q).trans ((lsm_apply _ _ _ q).symm ▸ ?_)
  refine congrArg (fun f => rowLsm f q) (funext fun l => ?_)
  have hin : ((cfg2.win 0).blk t).view.emb (ix2 p l) = ix2 (⟨2000 * t.val + p.val, hrow⟩ : Fin 100000) l := by
    funext a; apply Fin.ext
    match a with
    | ⟨0, _⟩ => show win2_0.index t (0 : Fin 2) * 2000 + 1 * p.val = 2000 * t.val + p.val; omega
    | ⟨1, _⟩ => show win2_0.index t (1 : Fin 2) * 40 + 1 * l.val = l.val; omega
  have hbias : ((cfg2.win 1).blk t).view.emb (ix2 (0 : Fin 1) l) = ix2 (0 : Fin 1) l := by
    funext a; apply Fin.ext
    match a with
    | ⟨0, _⟩ => show win2_1.index t (0 : Fin 2) * 1 + 1 * 0 = 0; omega
    | ⟨1, _⟩ => show win2_1.index t (1 : Fin 2) * 40 + 1 * l.val = l.val; omega
  have h0 : iblk2 V c 0 t (ix2 p l) = V c main_v58 (ix2 (⟨2000 * t.val + p.val, hrow⟩ : Fin 100000) l) :=
    congrArg (V c main_v58) hin
  have h1 : iblk2 V c 1 t (ix2 (0 : Fin 1) l) = b (ix1 l) := by
    refine (congrArg (V c main_v59) hbias).trans ?_
    rw [hb]
    exact shapeCast_a_1a_apply b _ (0 : Fin 1) l
  rw [h0, h1]
/-- What point t writes back is block t of the network's last stage of the arrays the region found. -/
theorem flushed_eq (c : Dev nD) (b : (⟨Cert.ReferenceIdeal.S40, .f32⟩ : BufTy).Contents (Elt Ideal))
    (hb : V c main_v59 = shapeCast S1x40 b shapeCasts_S40_S1x40) (t : Fin cfg2.N) :
    (dat2 (F := Ideal) V c).flushed 2 t
      = ((cfg2.win 2).blk t).view.read (Elt Ideal) (Cert.Gcn.lsm (F := Ideal) (V c main_v58) b) := by
  show (cfg2.win 2).cut (grid2.coords t) ((dat2 (F := Ideal) V c).after 2 t) = _
  rw [after2_2]
  unfold out2_2
  rw [View.canon_unit_zero zeroOffsets]
  simp only [View.ld_unit_zero (S := S2000x40) zeroOffsets, View.ld_unit_zero (S := S1x40) zeroOffsets]
  funext j
  show k2_pay1 (F := Ideal) (iblk2 V c 0 t) (iblk2 V c 1 t) j
    = Cert.Gcn.lsm (F := Ideal) (V c main_v58) b (((cfg2.win 2).blk t).view.emb j)
  rw [eq_ix2 j]
  exact written_apply V c b hb t (j 0) (j 1)

/-- A row-and-lane index is in point t's block iff each coordinate is in the block's range on its axis. -/
theorem mem_block (t : Fin cfg2.N) (i : S100000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v60).slice (win2_2.rect t)).set ↔ _
  rw [View.set_slice_whole, Rect.mem_set_unit]
  exact Iff.rfl

/-- Every entry of the output is in some point's block: row r is in the block of point r / 2000. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ : ∃ t : Fin cfg2.N, t.val = (i 0).val / 2000 :=
    ⟨⟨(i 0).val / 2000, lt_of_lt_of_eq (by omega : (i 0).val / 2000 < 50) N_2.symm⟩, rfl⟩
  obtain ⟨e00, e01, e10, e11, e20, e21⟩ := block_index t
  refine ⟨t, flush2_2 t, ?_⟩
  rw [mem_block]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 40 ≤ (i 1).val ∧ (i 1).val < win2_2.index t (1 : Fin 2) * 40 + 40
    omega

/-- The array region 2 leaves is the log-softmax of the arrays it found, the bias being the vector `b` the one-row
    array was reshaped from. -/
theorem value (c : Dev nD) (b : (⟨Cert.ReferenceIdeal.S40, .f32⟩ : BufTy).Contents (Elt Ideal))
    (hb : V c main_v59 = shapeCast S1x40 b shapeCasts_S40_S1x40) :
    (dat2 (F := Ideal) V c).arrAt 2 cfg2.N = Cert.Gcn.lsm (F := Ideal) (V c main_v58) b :=
  (dat2 (F := Ideal) V c).arrAt_eq_of_cover 2 (Cert.Gcn.lsm (F := Ideal) (V c main_v58) b)
    (fun t _ => flushed_eq V c b hb t) covered

end Cert.KernelIdeal.Region2

end
-- ==== Proof.KernelValue.lean ====
/-
  What the idealized kernel program leaves in its result buffer, as one function of the six argument arrays.

  The program is three pipelined regions among stretches of host operations.  Reading its buffers boundary by boundary:
  the stretch before region 0 builds, from the edge list alone, the index vectors s and d and the edge weights; region 0
  leaves x W1; the next stretch propagates it along the edges; region 1 leaves relu (· + b1) W2 of that; the next stretch
  propagates again; region 2 leaves the row-wise log-softmax of (· + b2).  Each host stretch is the specification's
  function of the same name by unfolding, each region by its own value lemma, and a buffer no operation writes keeps its
  contents across a boundary.
-/
import proofs.«147324_j32229434589358_1_alg».proof.Proof.Gen.KernelIdeal.Frame
import proofs.«147324_j32229434589358_1_alg».proof.Proof.Gen.ReferenceIdeal
import proofs.«147324_j32229434589358_1_alg».proof.Proof.Spec
import proofs.«147324_j32229434589358_1_alg».proof.Proof.Region0
import proofs.«147324_j32229434589358_1_alg».proof.Proof.Region1
import proofs.«147324_j32229434589358_1_alg».proof.Proof.Region2
import Idealize.ShloMosaic.Lib.StableHlo.Run
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before region 0: the index vectors and the edge weights are functions of the edge list alone; the other
    arguments are untouched -/

theorem W1_arg0 (c : Dev nD) : W1 m ρ c (Proc.devRef .tc main_arg0) = m ((c.tc : Thread nD τ).loc main_arg0) := by
  show StableHlo.after hostOps0 (W0 m ρ c) (Proc.devRef .tc main_arg0) = _
  dsimp only [hostOps0]
  after_results

theorem W1_arg2 (c : Dev nD) : W1 m ρ c (Proc.devRef .tc main_arg2) = m ((c.tc : Thread nD τ).loc main_arg2) := by
  show StableHlo.after hostOps0 (W0 m ρ c) (Proc.devRef .tc main_arg2) = _
  dsimp only [hostOps0]
  after_results

theorem W1_arg3 (c : Dev nD) : W1 m ρ c (Proc.devRef .tc main_arg3) = m ((c.tc : Thread nD τ).loc main_arg3) := by
  show StableHlo.after hostOps0 (W0 m ρ c) (Proc.devRef .tc main_arg3) = _
  dsimp only [hostOps0]
  after_results

theorem W1_arg4 (c : Dev nD) : W1 m ρ c (Proc.devRef .tc main_arg4) = m ((c.tc : Thread nD τ).loc main_arg4) := by
  show StableHlo.after hostOps0 (W0 m ρ c) (Proc.devRef .tc main_arg4) = _
  dsimp only [hostOps0]
  after_results

theorem W1_arg5 (c : Dev nD) : W1 m ρ c (Proc.devRef .tc main_arg5) = m ((c.tc : Thread nD τ).loc main_arg5) := by
  show StableHlo.after hostOps0 (W0 m ρ c) (Proc.devRef .tc main_arg5) = _
  dsimp only [hostOps0]
  after_results

set_option maxHeartbeats 2000000 in
theorem W1_v5 (c : Dev nD) : W1 m ρ c (Proc.devRef .tc main_v5) = (Cert.Gcn.srcOf (F := Ideal) (m ((c.tc : Thread nD τ).loc main_arg1))) := by
  show StableHlo.after hostOps0 (W0 m ρ c) (Proc.devRef .tc main_v5) = _
  dsimp only [hostOps0]
  after_results
  rfl

set_option maxHeartbeats 2000000 in
theorem W1_v6 (c : Dev nD) : W1 m ρ c (Proc.devRef .tc main_v6) = (Cert.Gcn.dstOf (F := Ideal) (m ((c.tc : Thread nD τ).loc main_arg1))) := by
  show StableHlo.after hostOps0 (W0 m ρ c) (Proc.devRef .tc main_v6) = _
  dsimp only [hostOps0]
  after_results
  rfl

set_option maxHeartbeats 2000000 in
theorem W1_v12 (c : Dev nD) : W1 m ρ c (Proc.devRef .tc main_v12)
    = cmpf (F := Ideal) .ogt (Cert.Gcn.degOf (F := Ideal) (Cert.Gcn.dstOf (F := Ideal) (m ((c.tc : Thread nD τ).loc main_arg1)))) (broadcastInDim Cert.ReferenceIdeal.S100000 ![] Cert.ReferenceIdeal.Facts₀.bcast_S_S100000 (constant Cert.ReferenceIdeal.S_ .f32 0x00000000#32)) := by
  show StableHlo.after hostOps0 (W0 m ρ c) (Proc.devRef .tc main_v12) = _
  dsimp only [hostOps0]
  after_results
  rfl

set_option maxHeartbeats 2000000 in
theorem W1_v13 (c : Dev nD) : W1 m ρ c (Proc.devRef .tc main_v13) = Host.rsqrt (F := Ideal) (φ := .f32) (Cert.Gcn.degOf (F := Ideal) (Cert.Gcn.dstOf (F := Ideal) (m ((c.tc : Thread nD τ).loc main_arg1)))) := by
  show StableHlo.after hostOps0 (W0 m ρ c) (Proc.devRef .tc main_v13) = _
  dsimp only [hostOps0]
  after_results
  rfl

theorem W1_cst2 (c : Dev nD) : W1 m ρ c (Proc.devRef .tc main_cst_2) = constant (F := Ideal) S_ .f32 0x00000000#32 := by
  show StableHlo.after hostOps0 (W0 m ρ c) (Proc.devRef .tc main_cst_2) = _
  dsimp only [hostOps0]
  after_results

theorem W3_arg0 (c : Dev nD) : W3 m ρ c (Proc.devRef .tc main_arg0) = m ((c.tc : Thread nD τ).loc main_arg0) := by
  show StableHlo.after hostOps0_2 (StableHlo.after hostOps0_1 (W1 m ρ c)) (Proc.devRef .tc main_arg0) = _
  have h := W1_arg0 m ρ c
  generalize W1 m ρ c = X at *
  dsimp only [hostOps0_2, hostOps0_1]
  after_results_simp
  exact h

theorem W3_arg2 (c : Dev nD) : W3 m ρ c (Proc.devRef .tc main_arg2) = m ((c.tc : Thread nD τ).loc main_arg2) := by
  show StableHlo.after hostOps0_2 (StableHlo.after hostOps0_1 (W1 m ρ c)) (Proc.devRef .tc main_arg2) = _
  have h := W1_arg2 m ρ c
  generalize W1 m ρ c = X at *
  dsimp only [hostOps0_2, hostOps0_1]
  after_results_simp
  exact h

theorem W3_arg3 (c : Dev nD) : W3 m ρ c (Proc.devRef .tc main_arg3) = m ((c.tc : Thread nD τ).loc main_arg3) := by
  show StableHlo.after hostOps0_2 (StableHlo.after hostOps0_1 (W1 m ρ c)) (Proc.devRef .tc main_arg3) = _
  have h := W1_arg3 m ρ c
  generalize W1 m ρ c = X at *
  dsimp only [hostOps0_2, hostOps0_1]
  after_results_simp
  exact h

theorem W3_arg4 (c : Dev nD) : W3 m ρ c (Proc.devRef .tc main_arg4) = m ((c.tc : Thread nD τ).loc main_arg4) := by
  show StableHlo.after hostOps0_2 (StableHlo.after hostOps0_1 (W1 m ρ c)) (Proc.devRef .tc main_arg4) = _
  have h := W1_arg4 m ρ c
  generalize W1 m ρ c = X at *
  dsimp only [hostOps0_2, hostOps0_1]
  after_results_simp
  exact h

theorem W3_arg5 (c : Dev nD) : W3 m ρ c (Proc.devRef .tc main_arg5) = m ((c.tc : Thread nD τ).loc main_arg5) := by
  show StableHlo.after hostOps0_2 (StableHlo.after hostOps0_1 (W1 m ρ c)) (Proc.devRef .tc main_arg5) = _
  have h := W1_arg5 m ρ c
  generalize W1 m ρ c = X at *
  dsimp only [hostOps0_2, hostOps0_1]
  after_results_simp
  exact h

theorem W3_v5 (c : Dev nD) : W3 m ρ c (Proc.devRef .tc main_v5) = (Cert.Gcn.srcOf (F := Ideal) (m ((c.tc : Thread nD τ).loc main_arg1))) := by
  show StableHlo.after hostOps0_2 (StableHlo.after hostOps0_1 (W1 m ρ c)) (Proc.devRef .tc main_v5) = _
  have h := W1_v5 m ρ c
  generalize W1 m ρ c = X at *
  dsimp only [hostOps0_2, hostOps0_1]
  after_results_simp
  exact h

theorem W3_v6 (c : Dev nD) : W3 m ρ c (Proc.devRef .tc main_v6) = (Cert.Gcn.dstOf (F := Ideal) (m ((c.tc : Thread nD τ).loc main_arg1))) := by
  show StableHlo.after hostOps0_2 (StableHlo.after hostOps0_1 (W1 m ρ c)) (Proc.devRef .tc main_v6) = _
  have h := W1_v6 m ρ c
  generalize W1 m ρ c = X at *
  dsimp only [hostOps0_2, hostOps0_1]
  after_results_simp
  exact h

theorem W3_v29 (c : Dev nD) : W3 m ρ c (Proc.devRef .tc main_v29) = (Cert.Gcn.normOf (F := Ideal) (Cert.Gcn.srcOf (F := Ideal) (m ((c.tc : Thread nD τ).loc main_arg1))) (Cert.Gcn.dstOf (F := Ideal) (m ((c.tc : Thread nD τ).loc main_arg1)))) := by
  show StableHlo.after hostOps0_2 (StableHlo.after hostOps0_1 (W1 m ρ c)) (Proc.devRef .tc main_v29) = _
  have h5 := W1_v5 m ρ c
  have h6 := W1_v6 m ρ c
  have h12 := W1_v12 m ρ c
  have h13 := W1_v13 m ρ c
  have hc := W1_cst2 m ρ c
  generalize W1 m ρ c = X at *
  dsimp only [hostOps0_2, hostOps0_1]
  after_results_simp
  simp only [TRef.ofBuf, TRef.toBuf, cast_eq]
  rw [h5, h6, h12, h13, hc]
  rfl

/-! ## Region 0 and what it leaves alone -/

theorem W4_v30 (c : Dev nD) : W4 m ρ c (Proc.devRef .tc main_v30) = (Cert.Gcn.lin1 (F := Ideal) (m ((c.tc : Thread nD τ).loc main_arg0)) (m ((c.tc : Thread nD τ).loc main_arg2))) := by
  refine (W4_arr m ρ c 2).trans ((Cert.KernelIdeal.Region0.value (V3 m ρ) c).trans ?_)
  show Cert.Gcn.lin1 (W3 m ρ c (Proc.devRef .tc main_arg0)) (W3 m ρ c (Proc.devRef .tc main_arg2)) = _
  rw [W3_arg0, W3_arg2]

theorem W4_v5 (c : Dev nD) : W4 m ρ c (Proc.devRef .tc main_v5) = (Cert.Gcn.srcOf (F := Ideal) (m ((c.tc : Thread nD τ).loc main_arg1))) := (W4_of_ne m ρ c main_v5 (by decide)).trans (W3_v5 m ρ c)
theorem W4_v6 (c : Dev nD) : W4 m ρ c (Proc.devRef .tc main_v6) = (Cert.Gcn.dstOf (F := Ideal) (m ((c.tc : Thread nD τ).loc main_arg1))) := (W4_of_ne m ρ c main_v6 (by decide)).trans (W3_v6 m ρ c)
theorem W4_v29 (c : Dev nD) : W4 m ρ c (Proc.devRef .tc main_v29) = (Cert.Gcn.normOf (F := Ideal) (Cert.Gcn.srcOf (F := Ideal) (m ((c.tc : Thread nD τ).loc main_arg1))) (Cert.Gcn.dstOf (F := Ideal) (m ((c.tc : Thread nD τ).loc main_arg1)))) := (W4_of_ne m ρ c main_v29 (by decide)).trans (W3_v29 m ρ c)
theorem W4_arg3 (c : Dev nD) : W4 m ρ c (Proc.devRef .tc main_arg3) = (m ((c.tc : Thread nD τ).loc main_arg3)) := (W4_of_ne m ρ c main_arg3 (by decide)).trans (W3_arg3 m ρ c)
theorem W4_arg4 (c : Dev nD) : W4 m ρ c (Proc.devRef .tc main_arg4) = (m ((c.tc : Thread nD τ).loc main_arg4)) := (W4_of_ne m ρ c main_arg4 (by decide)).trans (W3_arg4 m ρ c)
theorem W4_arg5 (c : Dev nD) : W4 m ρ c (Proc.devRef .tc main_arg5) = (m ((c.tc : Thread nD τ).loc main_arg5)) := (W4_of_ne m ρ c main_arg5 (by decide)).trans (W3_arg5 m ρ c)

/-! ## Between regions 0 and 1: one propagation step -/

theorem W5_v43 (c : Dev nD) : W5 m ρ c (Proc.devRef .tc main_v43) = (Cert.Gcn.agg128 (F := Ideal) (Cert.Gcn.srcOf (F := Ideal) (m ((c.tc : Thread nD τ).loc main_arg1))) (Cert.Gcn.dstOf (F := Ideal) (m ((c.tc : Thread nD τ).loc main_arg1))) (Cert.Gcn.normOf (F := Ideal) (Cert.Gcn.srcOf (F := Ideal) (m ((c.tc : Thread nD τ).loc main_arg1))) (Cert.Gcn.dstOf (F := Ideal) (m ((c.tc : Thread nD τ).loc main_arg1)))) (Cert.Gcn.lin1 (F := Ideal) (m ((c.tc : Thread nD τ).loc main_arg0)) (m ((c.tc : Thread nD τ).loc main_arg2)))) := by
  show StableHlo.after hostOps1 (W4 m ρ c) (Proc.devRef .tc main_v43) = _
  dsimp only [hostOps1]
  after_results_simp
  rw [W4_v5, W4_v6, W4_v29, W4_v30]
  rfl

theorem W5_v44 (c : Dev nD) : W5 m ρ c (Proc.devRef .tc main_v44) = shapeCast S1x128 (m ((c.tc : Thread nD τ).loc main_arg3)) shapeCasts_S128_S1x128 := by
  show StableHlo.after hostOps1 (W4 m ρ c) (Proc.devRef .tc main_v44) = _
  dsimp only [hostOps1]
  after_results_simp
  rw [W4_arg3]
  rfl

theorem W5_arg4 (c : Dev nD) : W5 m ρ c (Proc.devRef .tc main_arg4) = (m ((c.tc : Thread nD τ).loc main_arg4)) := by
  show StableHlo.after hostOps1 (W4 m ρ c) (Proc.devRef .tc main_arg4) = _
  dsimp only [hostOps1]
  after_results_simp
  exact W4_arg4 m ρ c
theorem W5_arg5 (c : Dev nD) : W5 m ρ c (Proc.devRef .tc main_arg5) = (m ((c.tc : Thread nD τ).loc main_arg5)) := by
  show StableHlo.after hostOps1 (W4 m ρ c) (Proc.devRef .tc main_arg5) = _
  dsimp only [hostOps1]
  after_results_simp
  exact W4_arg5 m ρ c
theorem W5_v5 (c : Dev nD) : W5 m ρ c (Proc.devRef .tc main_v5) = (Cert.Gcn.srcOf (F := Ideal) (m ((c.tc : Thread nD τ).loc main_arg1))) := by
  show StableHlo.after hostOps1 (W4 m ρ c) (Proc.devRef .tc main_v5) = _
  dsimp only [hostOps1]
  after_results_simp
  exact W4_v5 m ρ c
theorem W5_v6 (c : Dev nD) : W5 m ρ c (Proc.devRef .tc main_v6) = (Cert.Gcn.dstOf (F := Ideal) (m ((c.tc : Thread nD τ).loc main_arg1))) := by
  show StableHlo.after hostOps1 (W4 m ρ c) (Proc.devRef .tc main_v6) = _
  dsimp only [hostOps1]
  after_results_simp
  exact W4_v6 m ρ c
theorem W5_v29 (c : Dev nD) : W5 m ρ c (Proc.devRef .tc main_v29) = (Cert.Gcn.normOf (F := Ideal) (Cert.Gcn.srcOf (F := Ideal) (m ((c.tc : Thread nD τ).loc main_arg1))) (Cert.Gcn.dstOf (F := Ideal) (m ((c.tc : Thread nD τ).loc main_arg1)))) := by
  show StableHlo.after hostOps1 (W4 m ρ c) (Proc.devRef .tc main_v29) = _
  dsimp only [hostOps1]
  after_results_simp
  exact W4_v29 m ρ c

/-! ## Region 1 and what it leaves alone -/

theorem W6_v45 (c : Dev nD) : W6 m ρ c (Proc.devRef .tc main_v45) = (Cert.Gcn.lin2 (F := Ideal) (Cert.Gcn.agg128 (F := Ideal) (Cert.Gcn.srcOf (F := Ideal) (m ((c.tc : Thread nD τ).loc main_arg1))) (Cert.Gcn.dstOf (F := Ideal) (m ((c.tc : Thread nD τ).loc main_arg1))) (Cert.Gcn.normOf (F := Ideal) (Cert.Gcn.srcOf (F := Ideal) (m ((c.tc : Thread nD τ).loc main_arg1))) (Cert.Gcn.dstOf (F := Ideal) (m ((c.tc : Thread nD τ).loc main_arg1)))) (Cert.Gcn.lin1 (F := Ideal) (m ((c.tc : Thread nD τ).loc main_arg0)) (m ((c.tc : Thread nD τ).loc main_arg2)))) (m ((c.tc : Thread nD τ).loc main_arg3)) (m ((c.tc : Thread nD τ).loc main_arg4))) := by
  refine (W6_arr m ρ c 3).trans ((Cert.KernelIdeal.Region1.value (V5 m ρ) c (m ((c.tc : Thread nD τ).loc main_arg3)) (W5_v44 m ρ c)).trans ?_)
  show Cert.Gcn.lin2 (W5 m ρ c (Proc.devRef .tc main_v43)) _ (W5 m ρ c (Proc.devRef .tc main_arg4)) = _
  rw [W5_v43, W5_arg4]

theorem W6_v5 (c : Dev nD) : W6 m ρ c (Proc.devRef .tc main_v5) = (Cert.Gcn.srcOf (F := Ideal) (m ((c.tc : Thread nD τ).loc main_arg1))) := (W6_of_ne m ρ c main_v5 (by decide)).trans (W5_v5 m ρ c)
theorem W6_v6 (c : Dev nD) : W6 m ρ c (Proc.devRef .tc main_v6) = (Cert.Gcn.dstOf (F := Ideal) (m ((c.tc : Thread nD τ).loc main_arg1))) := (W6_of_ne m ρ c main_v6 (by decide)).trans (W5_v6 m ρ c)
theorem W6_v29 (c : Dev nD) : W6 m ρ c (Proc.devRef .tc main_v29) = (Cert.Gcn.normOf (F := Ideal) (Cert.Gcn.srcOf (F := Ideal) (m ((c.tc : Thread nD τ).loc main_arg1))) (Cert.Gcn.dstOf (F := Ideal) (m ((c.tc : Thread nD τ).loc main_arg1)))) := (W6_of_ne m ρ c main_v29 (by decide)).trans (W5_v29 m ρ c)
theorem W6_arg5 (c : Dev nD) : W6 m ρ c (Proc.devRef .tc main_arg5) = (m ((c.tc : Thread nD τ).loc main_arg5)) := (W6_of_ne m ρ c main_arg5 (by decide)).trans (W5_arg5 m ρ c)

/-! ## Between regions 1 and 2: the second propagation step -/

theorem W7_v58 (c : Dev nD) : W7 m ρ c (Proc.devRef .tc main_v58) = (Cert.Gcn.agg40 (F := Ideal) (Cert.Gcn.srcOf (F := Ideal) (m ((c.tc : Thread nD τ).loc main_arg1))) (Cert.Gcn.dstOf (F := Ideal) (m ((c.tc : Thread nD τ).loc main_arg1))) (Cert.Gcn.normOf (F := Ideal) (Cert.Gcn.srcOf (F := Ideal) (m ((c.tc : Thread nD τ).loc main_arg1))) (Cert.Gcn.dstOf (F := Ideal) (m ((c.tc : Thread nD τ).loc main_arg1)))) (Cert.Gcn.lin2 (F := Ideal) (Cert.Gcn.agg128 (F := Ideal) (Cert.Gcn.srcOf (F := Ideal) (m ((c.tc : Thread nD τ).loc main_arg1))) (Cert.Gcn.dstOf (F := Ideal) (m ((c.tc : Thread nD τ).loc main_arg1))) (Cert.Gcn.normOf (F := Ideal) (Cert.Gcn.srcOf (F := Ideal) (m ((c.tc : Thread nD τ).loc main_arg1))) (Cert.Gcn.dstOf (F := Ideal) (m ((c.tc : Thread nD τ).loc main_arg1)))) (Cert.Gcn.lin1 (F := Ideal) (m ((c.tc : Thread nD τ).loc main_arg0)) (m ((c.tc : Thread nD τ).loc main_arg2)))) (m ((c.tc : Thread nD τ).loc main_arg3)) (m ((c.tc : Thread nD τ).loc main_arg4)))) := by
  show StableHlo.after hostOps2 (W6 m ρ c) (Proc.devRef .tc main_v58) = _
  dsimp only [hostOps2]
  after_results_simp
  rw [W6_v5, W6_v6, W6_v29, W6_v45]
  rfl

theorem W7_v59 (c : Dev nD) : W7 m ρ c (Proc.devRef .tc main_v59) = shapeCast S1x40 (m ((c.tc : Thread nD τ).loc main_arg5)) shapeCasts_S40_S1x40 := by
  show StableHlo.after hostOps2 (W6 m ρ c) (Proc.devRef .tc main_v59) = _
  dsimp only [hostOps2]
  after_results_simp
  rw [W6_arg5]
  rfl

/-! ## Region 2: the result -/

/-- The result buffer at the last boundary is the network of the argument arrays as launched. -/
theorem kernel_out (c : Dev nD) :
    W8 (F := Ideal) m ρ c (Proc.devRef .tc main_v60)
      = Cert.Gcn.out (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (W8_arr m ρ c 2).trans ((Cert.KernelIdeal.Region2.value (V7 m ρ) c (m ((c.tc : Thread nD τ).loc main_arg5)) (W7_v59 m ρ c)).trans ?_)
  show Cert.Gcn.lsm (W7 m ρ c (Proc.devRef .tc main_v58)) _ = _
  rw [W7_v58]
  rfl

end Cert.KernelIdeal.Whole

end
-- ==== Proof.RefValue.lean ====
/-
  The reference program's run, read in five stretches.

  The reference is one straight line of 134 host operations.  Its buffers after the whole line are read stretch by
  stretch, each stretch from the contents the one before leaves:
    (A) the two rows of the edge list, the node numbers 0 … N-1, and the first dense layer x W1;
    (B) the index vectors with self loops, the degrees, the edge weights, one propagation step, and the second dense
        layer on the rectified result;
    (C) the node numbers once more;
    (D) the index vectors and the edge weights once more (the same functions of the edge list) and the second
        propagation step;
    (E) the bias and the row-wise log-softmax.
  Each stretch's result is the specification's function of the same name by unfolding, and a buffer no operation of a
  stretch writes keeps its contents across it.  So the result buffer ends at the specification's network of the
  argument arrays as launched, and the arguments end unchanged.
-/
import proofs.«147324_j32229434589358_1_alg».proof.Proof.RefRun
import proofs.«147324_j32229434589358_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The line, cut before each pair of concatenations and before the log-softmax -/

/-- Operations 1 … 6: the edge list's rows, the first dense layer, the node numbers. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    nullary main_v5 (iotaInDim S100000 32 0) ]

/-- Operations 7 … 64: from the index vectors to the second dense layer. -/
abbrev opsB : List (HloOp τ sig (Elt F)) :=
  [ binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf (F := F) .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v4 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]

/-- Operation 65: the node numbers once more. -/
abbrev opsC : List (HloOp τ sig (Elt F)) :=
  [ nullary main_v49 (iotaInDim S100000 32 0) ]

/-- Operations 66 … 116: the index vectors and edge weights once more, and the second propagation step. -/
abbrev opsD : List (HloOp τ sig (Elt F)) :=
  [ binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf (F := F) .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S1700000 ![] bcast_S_S1700000 : (⟨S_, .i32⟩ : BufTy).Contents (Elt F) → (⟨S1700000, .i32⟩ : BufTy).Contents (Elt F)),
    binary main_v50 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v62 (broadcastInDim S1700000 ![] bcast_S_S1700000 : (⟨S_, .i32⟩ : BufTy).Contents (Elt F) → (⟨S1700000, .i32⟩ : BufTy).Contents (Elt F)),
    binary main_v50 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v67 (broadcastInDim S1700000 ![] bcast_S_S1700000 : (⟨S_, .i32⟩ : BufTy).Contents (Elt F) → (⟨S1700000, .i32⟩ : BufTy).Contents (Elt F)),
    binary main_v51 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v69 (broadcastInDim S1700000 ![] bcast_S_S1700000 : (⟨S_, .i32⟩ : BufTy).Contents (Elt F) → (⟨S1700000, .i32⟩ : BufTy).Contents (Elt F)),
    binary main_v51 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v73 main_v74 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v75 (broadcastInDim S1700000 ![] bcast_S_S1700000 : (⟨S_, .i32⟩ : BufTy).Contents (Elt F) → (⟨S1700000, .i32⟩ : BufTy).Contents (Elt F)),
    binary main_v50 main_v75 main_v76 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v77 (broadcastInDim S1700000 ![] bcast_S_S1700000 : (⟨S_, .i32⟩ : BufTy).Contents (Elt F) → (⟨S1700000, .i32⟩ : BufTy).Contents (Elt F)),
    binary main_v50 main_v77 main_v78 (addi : (⟨S1700000, .i32⟩ : BufTy).Contents (Elt F) → (⟨S1700000, .i32⟩ : BufTy).Contents (Elt F) → (⟨S1700000, .i32⟩ : BufTy).Contents (Elt F)),
    ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v79 main_v80 (broadcastInDim S1700000x1 ![0] bcast_S1700000_S1700000x1_0 : (⟨S1700000, .i32⟩ : BufTy).Contents (Elt F) → (⟨S1700000x1, .i32⟩ : BufTy).Contents (Elt F)),
    binary main_v48 main_v80 main_v81 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v74 main_v82 (broadcastInDim S1700000x1 ![0] bcast_S1700000_S1700000x1_0 : (⟨S1700000, .f32⟩ : BufTy).Contents (Elt F) → (⟨S1700000x1, .f32⟩ : BufTy).Contents (Elt F)),
    unary main_v82 main_v83 (broadcastInDim S1700000x40 ![0, 1] bcast_S1700000x1_S1700000x40_0_1 : (⟨S1700000x1, .f32⟩ : BufTy).Contents (Elt F) → (⟨S1700000x40, .f32⟩ : BufTy).Contents (Elt F)),
    binary main_v81 main_v83 main_v84 (mulf : (⟨S1700000x40, .f32⟩ : BufTy).Contents (Elt F) → (⟨S1700000x40, .f32⟩ : BufTy).Contents (Elt F) → (⟨S1700000x40, .f32⟩ : BufTy).Contents (Elt F)),
    nullary main_cst_19 (constant S_ .f32 0x00000000#32),
    unary main_cst_19 main_v85 (broadcastInDim S100000x40 ![] bcast_S_S100000x40 : (⟨S_, .f32⟩ : BufTy).Contents (Elt F) → (⟨S100000x40, .f32⟩ : BufTy).Contents (Elt F)),
    unary main_v51 main_v86 (broadcastInDim S1700000x1 ![0] bcast_S1700000_S1700000x1_0 : (⟨S1700000, .i32⟩ : BufTy).Contents (Elt F) → (⟨S1700000x1, .i32⟩ : BufTy).Contents (Elt F)),
    ternary main_v85 main_v86 main_v84 main_v87 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

/-- Operations 117 … 134: the bias and the row-wise log-softmax. -/
abbrev opsE : List (HloOp τ sig (Elt F)) :=
  [ unary main_arg5 main_v88 (broadcastInDim S1x40 ![1] bcast_S40_S1x40_1 : (⟨S40, .f32⟩ : BufTy).Contents (Elt F) → (⟨S1x40, .f32⟩ : BufTy).Contents (Elt F)),
    unary main_v88 main_v89 (broadcastInDim S100000x40 ![0, 1] bcast_S1x40_S100000x40_0_1 : (⟨S1x40, .f32⟩ : BufTy).Contents (Elt F) → (⟨S100000x40, .f32⟩ : BufTy).Contents (Elt F)),
    binary main_v87 main_v89 main_v90 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v90) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v90) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v91) subf ]

/-- The line is its five stretches in order. -/
theorem ops_eq : (Cert.ReferenceIdeal.ValueP.ops : List (HloOp τ sig (Elt F))) = opsA ++ (opsB ++ (opsC ++ (opsD ++ opsE))) := rfl

/-- The contents after two stretches run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The contents after each stretch, from any contents `V` at the start. -/
def R1 (V : Valuation τ sig (Elt F)) : Valuation τ sig (Elt F) := after opsA V
def R2 (V : Valuation τ sig (Elt F)) : Valuation τ sig (Elt F) := after opsB (R1 V)
def R3 (V : Valuation τ sig (Elt F)) : Valuation τ sig (Elt F) := after opsC (R2 V)
def R4 (V : Valuation τ sig (Elt F)) : Valuation τ sig (Elt F) := after opsD (R3 V)
def R5 (V : Valuation τ sig (Elt F)) : Valuation τ sig (Elt F) := after opsE (R4 V)

theorem after_ops (V : Valuation τ sig (Elt F)) : after Cert.ReferenceIdeal.ValueP.ops V = R5 V := by
  rw [ops_eq]
  simp only [after_app]
  rfl

/-- A value carried to a buffer's own type and back is itself. -/
theorem ofBuf_toBuf {T : BufTy} (x : StableHlo.TRef sig T) (v : T.Contents (Elt F)) : x.ofBuf (x.toBuf v) = v := by
  cases x with
  | mk r h h2 h3 => cases h; rfl

variable (V : Valuation τ sig (Elt F))

/-! ## Stretch A -/

theorem R1_v1 : R1 V (Proc.devRef .tc main_v1) = (shapeCast S1600000 (extractStridedSlice S1x1600000 ![0, 0] (V (Proc.devRef .tc main_arg1)) slices_S2x1600000_S1x1600000_0_0) shapeCasts_S1x1600000_S1600000) := by
  show after opsA V (Proc.devRef .tc main_v1) = _
  dsimp only [opsA]
  after_results_simp
  rfl

theorem R1_v3 : R1 V (Proc.devRef .tc main_v3) = (shapeCast S1600000 (extractStridedSlice S1x1600000 ![1, 0] (V (Proc.devRef .tc main_arg1)) slices_S2x1600000_S1x1600000_1_0) shapeCasts_S1x1600000_S1600000) := by
  show after opsA V (Proc.devRef .tc main_v3) = _
  dsimp only [opsA]
  after_results_simp
  rfl

theorem R1_v5 : R1 V (Proc.devRef .tc main_v5) = iotaInDim S100000 32 0 := by
  show after opsA V (Proc.devRef .tc main_v5) = _
  dsimp only [opsA]
  after_results_simp

theorem R1_v4 : R1 V (Proc.devRef .tc main_v4) = (Cert.Gcn.lin1 (V (Proc.devRef .tc main_arg0)) (V (Proc.devRef .tc main_arg2))) := by
  show after opsA V (Proc.devRef .tc main_v4) = _
  dsimp only [opsA]
  after_results_simp
  rfl

theorem R1_arg3 : R1 V (Proc.devRef .tc main_arg3) = (V (Proc.devRef .tc main_arg3)) := by
  show after opsA V (Proc.devRef .tc main_arg3) = _
  dsimp only [opsA]
  after_results_simp
theorem R1_arg4 : R1 V (Proc.devRef .tc main_arg4) = (V (Proc.devRef .tc main_arg4)) := by
  show after opsA V (Proc.devRef .tc main_arg4) = _
  dsimp only [opsA]
  after_results_simp
theorem R1_arg5 : R1 V (Proc.devRef .tc main_arg5) = (V (Proc.devRef .tc main_arg5)) := by
  show after opsA V (Proc.devRef .tc main_arg5) = _
  dsimp only [opsA]
  after_results_simp

/-! ## Stretch B -/

set_option maxHeartbeats 4000000 in
theorem R2_v48 : R2 V (Proc.devRef .tc main_v48) = (Cert.Gcn.lin2 (Cert.Gcn.agg128 (Cert.Gcn.srcOf (V (Proc.devRef .tc main_arg1))) (Cert.Gcn.dstOf (V (Proc.devRef .tc main_arg1))) (Cert.Gcn.normOf (Cert.Gcn.srcOf (V (Proc.devRef .tc main_arg1))) (Cert.Gcn.dstOf (V (Proc.devRef .tc main_arg1)))) (Cert.Gcn.lin1 (V (Proc.devRef .tc main_arg0)) (V (Proc.devRef .tc main_arg2)))) (V (Proc.devRef .tc main_arg3)) (V (Proc.devRef .tc main_arg4))) := by
  show after opsB (R1 V) (Proc.devRef .tc main_v48) = _
  have h1 := R1_v1 V
  have h3 := R1_v3 V
  have h5 := R1_v5 V
  have h4 := R1_v4 V
  have ha3 := R1_arg3 V
  have ha4 := R1_arg4 V
  generalize R1 V = X at *
  dsimp only [opsB]
  after_results_simp
  repeat (first | (rw [binary_result_ne]; rotate_left; decide) | (rw [unary_result_ne]; rotate_left; decide) | (rw [nullary_result_ne]; rotate_left; decide) | (rw [ternary_result_ne]; rotate_left; decide) | (rw [reshape_result_ne]; rotate_left; decide) | rw [binary_result] | rw [unary_result] | rw [nullary_result] | rw [reshape_result])
  simp only [TRef.ofBuf, TRef.toBuf, cast_eq]
  rw [h1, h3, h5, h4, ha3, ha4]
  rfl

theorem R2_v1 : R2 V (Proc.devRef .tc main_v1) = (shapeCast S1600000 (extractStridedSlice S1x1600000 ![0, 0] (V (Proc.devRef .tc main_arg1)) slices_S2x1600000_S1x1600000_0_0) shapeCasts_S1x1600000_S1600000) := by
  show after opsB (R1 V) (Proc.devRef .tc main_v1) = _
  have h := R1_v1 V
  generalize R1 V = X at *
  dsimp only [opsB]
  after_results_simp
  exact h

theorem R2_v3 : R2 V (Proc.devRef .tc main_v3) = (shapeCast S1600000 (extractStridedSlice S1x1600000 ![1, 0] (V (Proc.devRef .tc main_arg1)) slices_S2x1600000_S1x1600000_1_0) shapeCasts_S1x1600000_S1600000) := by
  show after opsB (R1 V) (Proc.devRef .tc main_v3) = _
  have h := R1_v3 V
  generalize R1 V = X at *
  dsimp only [opsB]
  after_results_simp
  exact h

theorem R2_arg5 : R2 V (Proc.devRef .tc main_arg5) = (V (Proc.devRef .tc main_arg5)) := by
  show after opsB (R1 V) (Proc.devRef .tc main_arg5) = _
  have h := R1_arg5 V
  generalize R1 V = X at *
  dsimp only [opsB]
  after_results_simp
  exact h

/-! ## Stretch C -/

theorem R3_v49 : R3 V (Proc.devRef .tc main_v49) = iotaInDim S100000 32 0 := by
  show after opsC (R2 V) (Proc.devRef .tc main_v49) = _
  dsimp only [opsC]
  after_results_simp

theorem R3_v1 : R3 V (Proc.devRef .tc main_v1) = (shapeCast S1600000 (extractStridedSlice S1x1600000 ![0, 0] (V (Proc.devRef .tc main_arg1)) slices_S2x1600000_S1x1600000_0_0) shapeCasts_S1x1600000_S1600000) := by
  show after opsC (R2 V) (Proc.devRef .tc main_v1) = _
  have h := R2_v1 V
  generalize R2 V = X at *
  dsimp only [opsC]
  after_results_simp
  exact h

theorem R3_v3 : R3 V (Proc.devRef .tc main_v3) = (shapeCast S1600000 (extractStridedSlice S1x1600000 ![1, 0] (V (Proc.devRef .tc main_arg1)) slices_S2x1600000_S1x1600000_1_0) shapeCasts_S1x1600000_S1600000) := by
  show after opsC (R2 V) (Proc.devRef .tc main_v3) = _
  have h := R2_v3 V
  generalize R2 V = X at *
  dsimp only [opsC]
  after_results_simp
  exact h

theorem R3_v48 : R3 V (Proc.devRef .tc main_v48) = (Cert.Gcn.lin2 (Cert.Gcn.agg128 (Cert.Gcn.srcOf (V (Proc.devRef .tc main_arg1))) (Cert.Gcn.dstOf (V (Proc.devRef .tc main_arg1))) (Cert.Gcn.normOf (Cert.Gcn.srcOf (V (Proc.devRef .tc main_arg1))) (Cert.Gcn.dstOf (V (Proc.devRef .tc main_arg1)))) (Cert.Gcn.lin1 (V (Proc.devRef .tc main_arg0)) (V (Proc.devRef .tc main_arg2)))) (V (Proc.devRef .tc main_arg3)) (V (Proc.devRef .tc main_arg4))) := by
  show after opsC (R2 V) (Proc.devRef .tc main_v48) = _
  have h := R2_v48 V
  generalize R2 V = X at *
  dsimp only [opsC]
  after_results_simp
  exact h

theorem R3_arg5 : R3 V (Proc.devRef .tc main_arg5) = (V (Proc.devRef .tc main_arg5)) := by
  show after opsC (R2 V) (Proc.devRef .tc main_arg5) = _
  have h := R2_arg5 V
  generalize R2 V = X at *
  dsimp only [opsC]
  after_results_simp
  exact h

/-! ## Stretch D -/

set_option maxHeartbeats 4000000 in
theorem R4_v87 : R4 V (Proc.devRef .tc main_v87) = (Cert.Gcn.agg40 (Cert.Gcn.srcOf (V (Proc.devRef .tc main_arg1))) (Cert.Gcn.dstOf (V (Proc.devRef .tc main_arg1))) (Cert.Gcn.normOf (Cert.Gcn.srcOf (V (Proc.devRef .tc main_arg1))) (Cert.Gcn.dstOf (V (Proc.devRef .tc main_arg1)))) (Cert.Gcn.lin2 (Cert.Gcn.agg128 (Cert.Gcn.srcOf (V (Proc.devRef .tc main_arg1))) (Cert.Gcn.dstOf (V (Proc.devRef .tc main_arg1))) (Cert.Gcn.normOf (Cert.Gcn.srcOf (V (Proc.devRef .tc main_arg1))) (Cert.Gcn.dstOf (V (Proc.devRef .tc main_arg1)))) (Cert.Gcn.lin1 (V (Proc.devRef .tc main_arg0)) (V (Proc.devRef .tc main_arg2)))) (V (Proc.devRef .tc main_arg3)) (V (Proc.devRef .tc main_arg4)))) := by
  show after opsD (R3 V) (Proc.devRef .tc main_v87) = _
  have h1 := R3_v1 V
  have h3 := R3_v3 V
  have h49 := R3_v49 V
  have h48 := R3_v48 V
  generalize R3 V = X at *
  dsimp only [opsD]
  after_results_simp
  repeat (first | (rw [binary_result_ne]; rotate_left; decide) | (rw [unary_result_ne]; rotate_left; decide) | (rw [nullary_result_ne]; rotate_left; decide) | (rw [ternary_result_ne]; rotate_left; decide) | (rw [reshape_result_ne]; rotate_left; decide) | rw [binary_result] | rw [unary_result] | rw [nullary_result] | rw [reshape_result])
  simp only [TRef.ofBuf, TRef.toBuf, cast_eq]
  rw [h1, h3, h49, h48]
  rfl

theorem R4_arg5 : R4 V (Proc.devRef .tc main_arg5) = (V (Proc.devRef .tc main_arg5)) := by
  show after opsD (R3 V) (Proc.devRef .tc main_arg5) = _
  have h := R3_arg5 V
  generalize R3 V = X at *
  dsimp only [opsD]
  after_results_simp
  exact h

/-! ## Stretch E -/

set_option maxHeartbeats 4000000 in
theorem R5_v91_lsm : R5 V (Proc.devRef .tc main_v91)
    = Cert.Gcn.lsm (R4 V (Proc.devRef .tc main_v87)) (R4 V (Proc.devRef .tc main_arg5)) := by
  show after opsE (R4 V) (Proc.devRef .tc main_v91) = _
  generalize R4 V = X
  dsimp only [opsE]
  after_results_simp
  simp only [ofBuf_toBuf]
  rfl

theorem R5_v91 : R5 V (Proc.devRef .tc main_v91)
    = Cert.Gcn.out (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [R5_v91_lsm, R4_v87, R4_arg5]
  rfl

/-! ## The run -/

set_option maxHeartbeats 40000000 in
/-- Every weakly fair execution of the reference terminates with the network of the argument arrays in its result
    buffer and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91)
          = Cert.Gcn.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans ((congrFun (after_ops (launchContents m c)) _).trans (R5_v91 (launchContents m c))),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (Cert.ReferenceIdeal.ValueP.run_fold m ρ)

end Cert.ReferenceIdeal.RefValue

end
-- ==== Proof.lean ====
/-
  The certificate of a two-layer graph convolution: three pipelined kernel regions (a dense layer; a bias, a
  rectification and a dense layer; a bias and a row-wise log-softmax) among host gathers and scatter-adds along the
  edges, against the same network written with whole-array host operations.

  The three frames: the two kernel programs' are the generated ones, the reference's is its run with the result dropped.
  The idealization rewrote nothing.  The algebraic claim: both idealized programs end with the specification's network
  (Proof/Spec.lean) of the argument arrays in their result buffers — the kernel program by reading its buffers boundary by
  boundary (Proof/KernelValue.lean over the three regions' value lemmas), the reference by reading its one line of host
  operations stretch by stretch (Proof/RefValue.lean) — and the two memories agree on the arguments.
-/
import proofs.«147324_j32229434589358_1_alg».proof.Defs
import proofs.«147324_j32229434589358_1_alg».proof.Proof.Gen.Kernel
import proofs.«147324_j32229434589358_1_alg».proof.Proof.Gen.Kernel.Frame
import proofs.«147324_j32229434589358_1_alg».proof.Proof.Gen.KernelIdeal
import proofs.«147324_j32229434589358_1_alg».proof.Proof.Gen.KernelIdeal.Frame
import proofs.«147324_j32229434589358_1_alg».proof.Proof.Gen.ReferenceIdeal
import proofs.«147324_j32229434589358_1_alg».proof.Proof.Gen.Pre_finite_inputs
import proofs.«147324_j32229434589358_1_alg».proof.Proof.KernelRun
import proofs.«147324_j32229434589358_1_alg».proof.Proof.RefRun
import proofs.«147324_j32229434589358_1_alg».proof.Proof.Spec
import proofs.«147324_j32229434589358_1_alg».proof.Proof.KernelValue
import proofs.«147324_j32229434589358_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

/-- Both runs end with the network of the (agreeing) argument arrays in the result buffer. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Whole.kernel_out m ρ c), (h c).2⟩)
    (Cert.KernelIdeal.GenRun.run_result (F := Ideal) m ρ), ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
